-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S512x1024 : Shape := ⟨2, ![512, 1024]⟩
abbrev S1024x512 : Shape := ⟨2, ![1024, 512]⟩
abbrev S_ : Shape := ⟨0, ![]⟩
abbrev S4x2048 : Shape := ⟨2, ![4, 2048]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024x512 : S_.BroadcastsInDim S1024x512 (![] : Fin 0 → Fin S1024x512.rank)
  reducesTo_S1024x512_S_d0_1 : S1024x512.ReducesTo [0, 1] S_
  reducesTo_S4x2048x2048_S4x2048_d2 : S4x2048x2048.ReducesTo [2] S4x2048
  reducesTo_S4x2048_S_d0_1 : S4x2048.ReducesTo [0, 1] S_

variable [Facts]

def fn_part2 {F : FTy → Type} [FloatOps F] (main_arg3 : IVec S4x2048x2048 1) (main_v33 : IVec S_ 1) : IVec S_ 1 :=
  let main_c_12 : IVec S_ 1 := constantI S_ 1 1#1
  let main_v34 : IVec S4x2048 1 := (fun x v => Host.reduce IntOp.andi x v reducesTo_S4x2048x2048_S4x2048_d2 h_S_) main_arg3 main_c_12
  let main_v35 : IVec S4x2048 1 := noti main_v34
  let main_c_13 : IVec S_ 1 := constantI S_ 1 1#1
  let main_v36 : IVec S_ 1 := (fun x v => Host.reduce IntOp.andi x v reducesTo_S4x2048_S_d0_1 h_S_) main_v35 main_c_13
  let main_v37 : IVec S_ 1 := andi main_v33 main_v36
  main_v37

def fn_part1 {F : FTy → Type} [FloatOps F] (main_arg3 : IVec S4x2048x2048 1) (main_arg5 : FVec F S512x1024 .f32) (main_arg6 : FVec F S512x1024 .f32) (main_arg7 : FVec F S1024x512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512x1024 .f32 := Host.absf main_arg5
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512x1024 .f32 := Host.absf main_arg6
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S1024x512 .f32 := Host.absf main_arg7
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg3 main_v33

def fn {F : FTy → Type} [FloatOps F] (main_arg0 : FVec F S4x2048x1024 .f32) (main_arg1 : FVec F S4x2048x1024 .f32) (main_arg2 : FVec F S4x2048x1024 .f32) (main_arg3 : IVec S4x2048x2048 1) (main_arg4 : FVec F S512x1024 .f32) (main_arg5 : FVec F S512x1024 .f32) (main_arg6 : FVec F S512x1024 .f32) (main_arg7 : FVec F S1024x512 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg3 main_arg5 main_arg6 main_arg7 main_v13 main_v16
-- ==== Kernel.lean ====
abbrev S4x2048x1024 : Shape := ⟨3, ![4, 2048, 1024]⟩
abbrev S4x2048x2048 : Shape := ⟨3, ![4, 2048, 2048]⟩
abbrev S512x1024 : Shape := ⟨2, ![512, 1024]⟩
abbrev S1024x512 : Shape := ⟨2, ![1024, 512]⟩
abbrev S8192x1024 : Shape := ⟨2, ![8192, 1024]⟩
abbrev S8192x512 : Shape := ⟨2, ![8192, 512]⟩
abbrev S1024x1024 : Shape := ⟨2, ![1024, 1024]⟩
abbrev S4x2048x512 : Shape := ⟨3, ![4, 2048, 512]⟩
abbrev S4x256x512 : Shape := ⟨3, ![4, 256, 512]⟩
abbrev S4x256x2048 : Shape := ⟨3, ![4, 256, 2048]⟩
abbrev S4x256x1024 : Shape := ⟨3, ![4, 256, 1024]⟩
abbrev S4x256 : Shape := ⟨2, ![4, 256]⟩
abbrev S4x256x1 : Shape := ⟨3, ![4, 256, 1]⟩

abbrev nBuf : Space → Nat
  | .hbm => 28
  | .vmem => 26
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .i1⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x512, .f32⟩
  | .hbm, ⟨8, _⟩ => ⟨S1024x512, .f32⟩
  | .hbm, ⟨9, _⟩ => ⟨S1024x512, .bf16⟩
  | .hbm, ⟨10, _⟩ => ⟨S1024x512, .f32⟩
  | .hbm, ⟨11, _⟩ => ⟨S1024x512, .bf16⟩
  | .hbm, ⟨12, _⟩ => ⟨S1024x512, .f32⟩
  | .hbm, ⟨13, _⟩ => ⟨S1024x512, .bf16⟩
  | .hbm, ⟨14, _⟩ => ⟨S512x1024, .f32⟩
  | .hbm, ⟨15, _⟩ => ⟨S512x1024, .bf16⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x512, .bf16⟩
  | .hbm, ⟨20, _⟩ => ⟨S8192x512, .bf16⟩
  | .hbm, ⟨21, _⟩ => ⟨S8192x512, .bf16⟩
  | .hbm, ⟨22, _⟩ => ⟨S4x2048x512, .bf16⟩
  | .hbm, ⟨23, _⟩ => ⟨S4x2048x512, .bf16⟩
  | .hbm, ⟨24, _⟩ => ⟨S4x2048x512, .bf16⟩
  | .hbm, ⟨25, _⟩ => ⟨S4x2048x2048, .i32⟩
  | .hbm, ⟨26, _⟩ => ⟨S4x2048x1024, .f32⟩
  | .hbm, ⟨27, _⟩ => ⟨S4x2048x512, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S4x256x512, .bf16⟩
  | .local _ .vmem, ⟨16, _⟩ => ⟨S4x256x512, .bf16⟩
  | .local _ .vmem, ⟨17, _⟩ => ⟨S4x2048x512, .bf16⟩
  | .local _ .vmem, ⟨18, _⟩ => ⟨S4x2048x512, .bf16⟩
  | .local _ .vmem, ⟨19, _⟩ => ⟨S4x256x2048, .i32⟩
  | .local _ .vmem, ⟨20, _⟩ => ⟨S4x256x2048, .i32⟩
  | .local _ .vmem, ⟨21, _⟩ => ⟨S512x1024, .bf16⟩
  | .local _ .vmem, ⟨22, _⟩ => ⟨S4x256x1024, .f32⟩
  | .local _ .vmem, ⟨23, _⟩ => ⟨S4x256x1024, .f32⟩
  | .local _ .vmem, ⟨24, _⟩ => ⟨S4x256x512, .f32⟩
  | .local _ .vmem, ⟨25, _⟩ => ⟨S4x256x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x2048x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x256x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4x256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S512x1024_S1024x512_1_0 : S512x1024.Transposes [1, 0] S1024x512
  bitsLt_bf16_f32 : FTy.bits .bf16 < FTy.bits .f32
  transposes_S1024x512_S512x1024_1_0 : S1024x512.Transposes [1, 0] S512x1024
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  shapeCasts_S8192x512_S4x2048x512 : S8192x512.ShapeCasts S4x2048x512
  natLt_1_32 : 1 < 32
  inb_S4x256x512_S4x256x512_0_0_0 : ∀ a, (![0, 0, 0] : Fin 3 → Nat) a + S4x256x512.size a ≤ S4x256x512.size a
  h_S4x256x512 : 0 < S4x256x512.numel
  shapeCasts_S4x256x512_S4x256x512 : S4x256x512.ShapeCasts S4x256x512
  inb_S4x2048x512_S4x2048x512_0_0_0 : ∀ a, (![0, 0, 0] : Fin 3 → Nat) a + S4x2048x512.size a ≤ S4x2048x512.size a
  h_S4x2048x512 : 0 < S4x2048x512.numel
  shapeCasts_S4x2048x512_S4x2048x512 : S4x2048x512.ShapeCasts S4x2048x512
  inb_S4x256x2048_S4x256x2048_0_0_0 : ∀ a, (![0, 0, 0] : Fin 3 → Nat) a + S4x256x2048.size a ≤ S4x256x2048.size a
  h_S4x256x2048 : 0 < S4x256x2048.numel
  reduces_S4x256x2048_S4x256 : S4x256x2048.Reduces [2] S4x256
  shapeCasts_S4x256_S4x256x1 : S4x256.ShapeCasts S4x256x1
  broadcasts_S4x256x1_S4x256x2048 : S4x256x1.Broadcasts S4x256x2048
  broadcasts_S4x256x1_S4x256x512 : S4x256x1.Broadcasts S4x256x512
  shapeCasts_S4x256x512_S1024x512 : S4x256x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024x1024_S4x256x1024 : S1024x1024.ShapeCasts S4x256x1024
  inb_S4x256x1024_S4x256x1024_0_0_0 : ∀ a, (![0, 0, 0] : Fin 3 → Nat) a + S4x256x1024.size a ≤ S4x256x1024.size a
  h_S4x256x1024 : 0 < S4x256x1024.numel
  dot_S1024x1024_S1024x512_S1024x512_1_0_0_1_n_n_wf : DotDims.WF S1024x1024 S1024x512 S1024x512 [1] [0] [0] [1] [] []
  dot_S4x256x512_S4x2048x512_S4x256x2048_2_2_1_1_0_0_wf : DotDims.WF S4x256x512 S4x2048x512 S4x256x2048 [2] [2] [1] [1] [0] [0]
  dot_S4x256x2048_S4x2048x512_S4x256x512_2_1_1_2_0_0_wf : DotDims.WF S4x256x2048 S4x2048x512 S4x256x512 [2] [1] [1] [2] [0] [0]
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .f32 = 32 ∨ (Rect.block (s := S8192x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x512.size a
  hwx0_6 : ∀ i : grid0.Coords, EltTy.bits .bf16 = 32 ∨ (Rect.block (s := S8192x512) S1024x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S8192x512.size a
  hwx0_7 : ∀ i : grid0.Coords, EltTy.bits .bf16 = 32 ∨ (Rect.block (s := S8192x512) S1024x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S8192x512.size a
  hwx0_8 : ∀ i : grid0.Coords, EltTy.bits .bf16 = 32 ∨ (Rect.block (s := S8192x512) S1024x512.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x512.size a ≤ S4x2048x512.size a
  hwx1_0 : ∀ i : grid1.Coords, EltTy.bits .bf16 = 32 ∨ (Rect.block (s := S4x2048x512) S4x256x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x2048x512.size a ≤ S4x2048x512.size a
  hwx1_1 : ∀ i : grid1.Coords, EltTy.bits .bf16 = 32 ∨ (Rect.block (s := S4x2048x512) S4x2048x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x2048x512.size a ≤ S4x2048x512.size a
  hwx1_2 : ∀ i : grid1.Coords, EltTy.bits .bf16 = 32 ∨ (Rect.block (s := S4x2048x512) S4x2048x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x256x2048.size a ≤ S4x2048x2048.size a
  hwx1_3 : ∀ i : grid1.Coords, EltTy.bits .i32 = 32 ∨ (Rect.block (s := S4x2048x2048) S4x256x2048.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S512x1024.size a
  hwx1_4 : ∀ i : grid1.Coords, EltTy.bits .bf16 = 32 ∨ (Rect.block (s := S512x1024) S512x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x256x1024.size a ≤ S4x2048x1024.size a
  hwx1_5 : ∀ i : grid1.Coords, EltTy.bits .f32 = 32 ∨ (Rect.block (s := S4x2048x1024) S4x256x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4x256x512.size a ≤ S4x2048x512.size a
  hwx1_6 : ∀ i : grid1.Coords, EltTy.bits .f32 = 32 ∨ (Rect.block (s := S4x2048x512) S4x256x512.size (cc1_transform_6 i) (hinb1_6 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S4x256x512_S4x2048x512_S4x256x2048_2_2_1_1_0_0 : DotDims S4x256x512 S4x2048x512 S4x256x2048 where
  lhsContracting := [2]
  rhsContracting := [2]
  lhsNonContracting := [1]
  rhsNonContracting := [1]
  lhsBatch := [0]
  rhsBatch := [0]
  wf := dot_S4x256x512_S4x2048x512_S4x256x2048_2_2_1_1_0_0_wf
def dot_S4x256x2048_S4x2048x512_S4x256x512_2_1_1_2_0_0 : DotDims S4x256x2048 S4x2048x512 S4x256x512 where
  lhsContracting := [2]
  rhsContracting := [1]
  lhsNonContracting := [1]
  rhsNonContracting := [2]
  lhsBatch := [0]
  rhsBatch := [0]
  wf := dot_S4x256x2048_S4x2048x512_S4x256x512_2_1_1_2_0_0_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11_0) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11_1) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_2) S1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v12) S4x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4x2048x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S4x2048x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S4x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S512x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16_0) S4x256x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v16_1) S4x256x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S512x1024 : Shape := ⟨2, ![512, 1024]⟩
abbrev S1024x512 : Shape := ⟨2, ![1024, 512]⟩
abbrev S4x2048x512 : Shape := ⟨3, ![4, 2048, 512]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .i1⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x512, .f32⟩
  | .hbm, ⟨8, _⟩ => ⟨S4x2048x512, .f32⟩
  | .hbm, ⟨9, _⟩ => ⟨S4x2048x512, .f32⟩
  | .hbm, ⟨10, _⟩ => ⟨S4x2048x512, .f32⟩
  | .hbm, ⟨11, _⟩ => ⟨S4x2048x2048, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S_, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S4x2048x512, .f32⟩
  | .hbm, ⟨34, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S512x1024_S4x2048x512_2_1_01_0_n_n_wf : DotDims.WF S4x2048x1024 S512x1024 S4x2048x512 [2] [1] [0, 1] [0] [] []
  dot_S4x2048x512_S4x2048x512_S4x2048x2048_2_2_1_1_0_0_wf : DotDims.WF S4x2048x512 S4x2048x512 S4x2048x2048 [2] [2] [1] [1] [0] [0]
  dot_S4x2048x2048_S4x2048x512_S4x2048x512_2_1_1_2_0_0_wf : DotDims.WF S4x2048x2048 S4x2048x512 S4x2048x512 [2] [1] [1] [2] [0] [0]
  dot_S4x2048x512_S1024x512_S4x2048x1024_2_1_01_0_n_n_wf : DotDims.WF S4x2048x512 S1024x512 S4x2048x1024 [2] [1] [0, 1] [0] [] []

variable [Facts₀]

def dot_S4x2048x1024_S512x1024_S4x2048x512_2_1_01_0_n_n : DotDims S4x2048x1024 S512x1024 S4x2048x512 where
  lhsContracting := [2]
  rhsContracting := [1]
  lhsNonContracting := [0, 1]
  rhsNonContracting := [0]
  lhsBatch := []
  rhsBatch := []
  wf := dot_S4x2048x1024_S512x1024_S4x2048x512_2_1_01_0_n_n_wf
def dot_S4x2048x512_S4x2048x512_S4x2048x2048_2_2_1_1_0_0 : DotDims S4x2048x512 S4x2048x512 S4x2048x2048 where
  lhsContracting := [2]
  rhsContracting := [2]
  lhsNonContracting := [1]
  rhsNonContracting := [1]
  lhsBatch := [0]
  rhsBatch := [0]
  wf := dot_S4x2048x512_S4x2048x512_S4x2048x2048_2_2_1_1_0_0_wf
def dot_S4x2048x2048_S4x2048x512_S4x2048x512_2_1_1_2_0_0 : DotDims S4x2048x2048 S4x2048x512 S4x2048x512 where
  lhsContracting := [2]
  rhsContracting := [1]
  lhsNonContracting := [1]
  rhsNonContracting := [2]
  lhsBatch := [0]
  rhsBatch := [0]
  wf := dot_S4x2048x2048_S4x2048x512_S4x2048x512_2_1_1_2_0_0_wf
def dot_S4x2048x512_S1024x512_S4x2048x1024_2_1_01_0_n_n : DotDims S4x2048x512 S1024x512 S4x2048x1024 where
  lhsContracting := [2]
  rhsContracting := [1]
  lhsNonContracting := [0, 1]
  rhsNonContracting := [0]
  lhsBatch := []
  rhsBatch := []
  wf := dot_S4x2048x512_S1024x512_S4x2048x1024_2_1_01_0_n_n_wf

class Facts : Prop extends Facts₀ where

variable [Facts]
-- ==== Proof.Spec.lean ====
/-
  The mathematics both programs compute, one attention row at a time, over the extended reals.

  A row of attention takes a query row q (512 numbers), the key rows k_j and value rows v_j (2048 of each, 512 numbers
  each) and a mask bit per key. The score of key j is the inner product of q and k_j, replaced by -infinity where the
  mask bit is set; the weights are the exponentials of the scores shifted by their maximum; the result at column f is
  the weighted sum of the values at f, divided by the sum of the weights.

  The two programs arrange this differently. One scales the query row by 1/8 before the inner products, and divides
  the weighted sum once, by multiplying it with the reciprocal of the sum of the weights (attnK). The other divides each
  score by 8, and divides each weight by the sum of the weights before the weighted sum (attnR). Where every projected
  number is real and at least one key is unmasked, the two are equal; that is proved elsewhere. Here are only the
  two formulas, the linear projection x W^T at an entry, and the four float constants the programs spell.
-/
import Idealize.ShloMosaic.PureOps.Ideal
import Idealize.ShloMosaic.Lib.ValueIdx

noncomputable section

open scoped BigOperators

namespace Cert.Spec

open Idealize.ShloMosaic

/-- One eighth, the factor one program multiplies the projected query with. -/
def c8 : EReal := ((1 / 8 : ℝ) : EReal)
/-- Eight, the divisor the other program divides each score by. -/
def d8 : EReal := ((8 : ℝ) : EReal)

/-- The inner product of two rows of n numbers. -/
def dot {n : ℕ} (x w : Fin n → EReal) : EReal := ∑ d : Fin n, x d * w d

/-! ## The row with the scaled query and one division at the end -/

/-- The score of key j: -infinity where masked, else the inner product of the (scaled) query row with key row j. -/
def sK (qs : Fin 512 → EReal) (kp : Fin 2048 → Fin 512 → EReal) (mk : Fin 2048 → BitVec 1) (j : Fin 2048) : EReal :=
  if mk j = 1#1 then ⊥ else ∑ f : Fin 512, qs f * kp j f

/-- The largest score of the row. -/
def mxK (qs : Fin 512 → EReal) (kp : Fin 2048 → Fin 512 → EReal) (mk : Fin 2048 → BitVec 1) : EReal :=
  (Finset.univ : Finset (Fin 2048)).fold max ⊥ (sK qs kp mk)

/-- The weight of key j: the exponential of its score less the largest. -/
def pK (qs : Fin 512 → EReal) (kp : Fin 2048 → Fin 512 → EReal) (mk : Fin 2048 → BitVec 1) (j : Fin 2048) : EReal :=
  Ideal.exp (sK qs kp mk j - mxK qs kp mk)

/-- The sum of the weights. -/
def lK (qs : Fin 512 → EReal) (kp : Fin 2048 → Fin 512 → EReal) (mk : Fin 2048 → BitVec 1) : EReal :=
  ∑ j : Fin 2048, pK qs kp mk j

/-- The row's result at column f: the weighted sum of the values, times the reciprocal of the sum of the weights. -/
def attnK (qs : Fin 512 → EReal) (kp vp : Fin 2048 → Fin 512 → EReal) (mk : Fin 2048 → BitVec 1) (f : Fin 512) : EReal :=
  (∑ j : Fin 2048, pK qs kp mk j * vp j f) * Ideal.div 1 (lK qs kp mk)

/-! ## The row with each score divided by eight and each weight divided by the sum -/

/-- The score of key j: -infinity where masked, else the inner product divided by eight. -/
def sR (qp : Fin 512 → EReal) (kp : Fin 2048 → Fin 512 → EReal) (mk : Fin 2048 → BitVec 1) (j : Fin 2048) : EReal :=
  if mk j = 1#1 then ⊥ else Ideal.div (∑ f : Fin 512, qp f * kp j f) d8

/-- The largest score of the row (taken once more against -infinity, which changes nothing). -/
def mxR (qp : Fin 512 → EReal) (kp : Fin 2048 → Fin 512 → EReal) (mk : Fin 2048 → BitVec 1) : EReal :=
  max ⊥ ((Finset.univ : Finset (Fin 2048)).fold max ⊥ (sR qp kp mk))

/-- The weight of key j. -/
def pR (qp : Fin 512 → EReal) (kp : Fin 2048 → Fin 512 → EReal) (mk : Fin 2048 → BitVec 1) (j : Fin 2048) : EReal :=
  Ideal.exp (sR qp kp mk j - mxR qp kp mk)

/-- The sum of the weights, from zero. -/
def lR (qp : Fin 512 → EReal) (kp : Fin 2048 → Fin 512 → EReal) (mk : Fin 2048 → BitVec 1) : EReal :=
  0 + ∑ j : Fin 2048, pR qp kp mk j

/-- The row's result at column f: the sum over the keys of the normalised weight times the value. -/
def attnR (qp : Fin 512 → EReal) (kp vp : Fin 2048 → Fin 512 → EReal) (mk : Fin 2048 → BitVec 1) (f : Fin 512) : EReal :=
  ∑ j : Fin 2048, Ideal.div (pR qp kp mk j) (lR qp kp mk) * vp j f

/-! ## A row of the whole computation, from the eight arguments -/

open Idealize.ShloMosaic.ValueIdx in
/-- The linear projection x W^T at (b, l, f): row (b, l) of x against row f of W. -/
def proj (x : (⟨3, ![4, 2048, 1024]⟩ : Shape).Idx → EReal) (w : (⟨2, ![512, 1024]⟩ : Shape).Idx → EReal)
    (b : Fin 4) (l : Fin 2048) (f : Fin 512) : EReal :=
  dot (fun d : Fin 1024 => x (ix3 b l d)) (fun d : Fin 1024 => w (ix2 f d))

open Idealize.ShloMosaic.ValueIdx in
/-- The attention row of batch b and query i in the first arrangement: the projected query scaled by one eighth. -/
def rowK (x0 x1 x2 : (⟨3, ![4, 2048, 1024]⟩ : Shape).Idx → EReal) (x3 : (⟨3, ![4, 2048, 2048]⟩ : Shape).Idx → BitVec 1)
    (x4 x5 x6 : (⟨2, ![512, 1024]⟩ : Shape).Idx → EReal) (b : Fin 4) (i : Fin 2048) (f : Fin 512) : EReal :=
  attnK (fun f' : Fin 512 => proj x0 x4 b i f' * c8) (proj x1 x5 b) (proj x2 x6 b) (fun j : Fin 2048 => x3 (ix3 b i j)) f

open Idealize.ShloMosaic.ValueIdx in
/-- The same row in the second arrangement. -/
def rowR (x0 x1 x2 : (⟨3, ![4, 2048, 1024]⟩ : Shape).Idx → EReal) (x3 : (⟨3, ![4, 2048, 2048]⟩ : Shape).Idx → BitVec 1)
    (x4 x5 x6 : (⟨2, ![512, 1024]⟩ : Shape).Idx → EReal) (b : Fin 4) (i : Fin 2048) (f : Fin 512) : EReal :=
  attnR (proj x0 x4 b i) (proj x1 x5 b) (proj x2 x6 b) (fun j : Fin 2048 => x3 (ix3 b i j)) f

/-! ## The float constants the programs spell -/

/-- The pattern of 0.125 denotes one eighth. -/
theorem ofBits_eighth : Ideal.ofBits .f32 0x3E000000#32 = c8 := by
  unfold c8; simp [Ideal.ofBits, Ideal.ieee, -EReal.coe_mul]; norm_num

/-- The pattern of 8.0 denotes eight. -/
theorem ofBits_eight : Ideal.ofBits .f32 0x41000000#32 = d8 := by
  unfold d8; simp [Ideal.ofBits, Ideal.ieee, -EReal.coe_mul]; norm_num

/-- The pattern of 1.0 denotes one. -/
theorem ofBits_one : Ideal.ofBits .f32 0x3F800000#32 = 1 := by
  simp [Ideal.ofBits, Ideal.ieee, -EReal.coe_mul]; norm_num

/-- The pattern of -infinity denotes the bottom of the extended reals. -/
theorem ofBits_neg_inf : Ideal.ofBits .f32 0xFF800000#32 = ⊥ := by
  simp [Ideal.ofBits, Ideal.ieee]

/-- The pattern of +infinity denotes the top. -/
theorem ofBits_pos_inf : Ideal.ofBits .f32 0x7F800000#32 = ⊤ := by
  simp [Ideal.ofBits, Ideal.ieee]

end Cert.Spec

end
-- ==== Proof.Math.lean ====
/-
  The two arrangements of an attention row agree.

  With every projected number real and at least one key unmasked: the scores are real or -infinity, their maximum is
  real, every weight is a real number that is not negative, the weight of a key whose score is the maximum is one, so the
  sum of the weights is a positive real. Scaling the query by one eighth before the inner products is dividing the inner
  products by eight (distributivity over a finite sum of reals); dividing each weight by the sum before the weighted sum
  is multiplying the weighted sum by the reciprocal of the sum (again distributivity, over reals). Both laws fail at the
  infinities, which is why realness is needed.
-/
import proofs.«405517_j32014686224684_3_alg».proof.Proof.Spec
import Mathlib.Analysis.SpecialFunctions.Exp
import Mathlib.Data.EReal.Basic
import Mathlib.Data.EReal.Operations
import Mathlib.Data.EReal.Inv

set_option maxRecDepth 16384

noncomputable section

open scoped BigOperators

namespace Cert.Math

open Idealize.ShloMosaic Cert.Spec

/-- The coercion of a finite sum of reals is the sum of the coercions. -/
private theorem coe_sum {ι : Type*} (t : Finset ι) (g : ι → ℝ) :
    ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- Every term is below the running maximum of the terms. -/
private theorem le_fold_max {ι : Type*} [DecidableEq ι] (t : Finset ι) (s : ι → EReal) :
    ∀ j ∈ t, s j ≤ t.fold max ⊥ s := by
  induction t using Finset.induction_on with
  | empty => intro j hj; simp at hj
  | insert a t ha ih =>
    intro j hj
    rw [Finset.fold_insert ha]
    rcases Finset.mem_insert.mp hj with rfl | hj
    · exact le_max_left _ _
    · exact le_trans (ih j hj) (le_max_right _ _)

/-- The running maximum of the terms from -infinity is -infinity or one of the terms. -/
private theorem fold_max_mem {ι : Type*} [DecidableEq ι] (t : Finset ι) (s : ι → EReal) :
    t.fold max ⊥ s = ⊥ ∨ ∃ j ∈ t, t.fold max ⊥ s = s j := by
  induction t using Finset.induction_on with
  | empty => left; simp
  | insert a t ha ih =>
    rw [Finset.fold_insert ha]
    rcases le_total (s a) (t.fold max ⊥ s) with h | h
    · rw [max_eq_right h]
      rcases ih with h0 | ⟨j, hj, hj'⟩
      · left; exact h0
      · right; exact ⟨j, Finset.mem_insert_of_mem hj, hj'⟩
    · rw [max_eq_left h]; right; exact ⟨a, Finset.mem_insert_self a t, rfl⟩

/-- An inner product of rows of real numbers is a real number. -/
theorem dot_real {n : ℕ} (x w : Fin n → EReal) (hx : ∀ d, ∃ r : ℝ, x d = (r : EReal)) (hw : ∀ d, ∃ r : ℝ, w d = (r : EReal)) :
    ∃ r : ℝ, Spec.dot x w = (r : EReal) := by
  choose a ha using hx
  choose b hb using hw
  refine ⟨∑ d, a d * b d, ?_⟩
  unfold Spec.dot
  rw [coe_sum]
  refine Finset.sum_congr rfl fun d _ => ?_
  rw [ha d, hb d, EReal.coe_mul]

/-- Scaling one row by an eighth before the inner product is dividing the inner product by eight, over reals. -/
private theorem scale_dot {n : ℕ} (a k : Fin n → ℝ) :
    ∑ f, ((a f : EReal) * Spec.c8) * (k f : EReal) = Ideal.div (∑ f, (a f : EReal) * (k f : EReal)) Spec.d8 := by
  unfold Spec.c8 Spec.d8
  rw [Ideal.div_coe (by norm_num : (8 : ℝ) ≠ 0)]
  simp only [← EReal.coe_mul]
  rw [← coe_sum, ← coe_sum, ← EReal.coe_mul, Finset.sum_mul]
  congr 1
  refine Finset.sum_congr rfl fun f _ => ?_
  ring

/-- Over reals with a sum that is not zero, dividing each weight before the weighted sum is multiplying the weighted sum by the reciprocal. -/
private theorem real_core {ι : Type*} [Fintype ι] (p v : ι → ℝ) (hL : ∑ j, p j ≠ 0) :
    (∑ j, (p j : EReal) * (v j : EReal)) * Ideal.div 1 (∑ j, (p j : EReal))
      = ∑ j, Ideal.div (p j : EReal) (0 + ∑ j, (p j : EReal)) * (v j : EReal) := by
  rw [zero_add, ← coe_sum, Ideal.div_coe hL]
  simp only [Ideal.div_coe hL, ← EReal.coe_mul, ← EReal.coe_one]
  rw [← coe_sum, ← coe_sum, ← EReal.coe_mul, Finset.sum_mul]
  congr 1
  refine Finset.sum_congr rfl fun j _ => ?_
  ring

/-- The agreement for any row of scores each -infinity or real, one of them real, and real values. -/
private theorem core {ι : Type*} [Fintype ι] (s vp : ι → EReal)
    (hs : ∀ j, s j = ⊥ ∨ ∃ r : ℝ, s j = (r : EReal)) (hne : ∃ j, ∃ r : ℝ, s j = (r : EReal))
    (hv : ∀ j, ∃ r : ℝ, vp j = (r : EReal)) :
    (∑ j, Ideal.exp (s j - Finset.univ.fold max ⊥ s) * vp j) * Ideal.div 1 (∑ j, Ideal.exp (s j - Finset.univ.fold max ⊥ s))
      = ∑ j, Ideal.div (Ideal.exp (s j - max ⊥ (Finset.univ.fold max ⊥ s)))
          (0 + ∑ j, Ideal.exp (s j - max ⊥ (Finset.univ.fold max ⊥ s))) * vp j := by
  classical
  obtain ⟨j0, r0, hj0⟩ := hne
  -- the maximum is a real number
  have hge : s j0 ≤ Finset.univ.fold max ⊥ s := le_fold_max _ s j0 (Finset.mem_univ _)
  have hnb : Finset.univ.fold max ⊥ s ≠ ⊥ := by
    intro h
    rw [h, hj0] at hge
    exact absurd (le_bot_iff.mp hge) (EReal.coe_ne_bot r0)
  obtain ⟨j1, -, hj1⟩ : ∃ j ∈ (Finset.univ : Finset ι), Finset.univ.fold max ⊥ s = s j := by
    rcases fold_max_mem Finset.univ s with h | h
    · exact absurd h hnb
    · exact h
  obtain ⟨Mr, hMr⟩ : ∃ r : ℝ, s j1 = (r : EReal) := by
    rcases hs j1 with h | h
    · exact absurd (hj1.trans h) hnb
    · exact h
  have hM : Finset.univ.fold max ⊥ s = (Mr : EReal) := hj1.trans hMr
  rw [max_eq_right (bot_le : (⊥ : EReal) ≤ Finset.univ.fold max ⊥ s), hM]
  -- every weight is a real number that is not negative
  have hp : ∀ j, ∃ r : ℝ, 0 ≤ r ∧ Ideal.exp (s j - (Mr : EReal)) = (r : EReal) := by
    intro j
    rcases hs j with h | ⟨r, h⟩
    · refine ⟨0, le_refl _, ?_⟩
      rw [h, EReal.bot_sub, Ideal.exp_bot, EReal.coe_zero]
    · refine ⟨Real.exp (r - Mr), (Real.exp_pos _).le, ?_⟩
      rw [h, ← EReal.coe_sub, Ideal.exp_coe]
  choose p hp0 hp using hp
  -- the weight of the key with the largest score is one
  have hp1 : p j1 = 1 := by
    have h := hp j1
    rw [hMr, ← EReal.coe_sub, sub_self, Ideal.exp_coe, Real.exp_zero] at h
    exact (EReal.coe_eq_coe_iff.mp h).symm
  have hL : ∑ j, p j ≠ 0 := by
    have h1 : p j1 ≤ ∑ j, p j := Finset.single_le_sum (fun j _ => hp0 j) (Finset.mem_univ j1)
    rw [hp1] at h1
    linarith
  choose v hv using hv
  simp only [hp, hv]
  exact real_core p v hL

/-- With real rows the two score rows are one row: scaling the query by an eighth is dividing the score by eight. -/
private theorem scores_eq (qp : Fin 512 → EReal) (kp : Fin 2048 → Fin 512 → EReal) (mk : Fin 2048 → BitVec 1)
    (a : Fin 512 → ℝ) (k : Fin 2048 → Fin 512 → ℝ) (ha : ∀ f, qp f = (a f : EReal)) (hk : ∀ j f, kp j f = (k j f : EReal)) :
    Spec.sK (fun f' => qp f' * Spec.c8) kp mk = Spec.sR qp kp mk := by
  funext j
  unfold Spec.sK Spec.sR
  by_cases h : mk j = 1#1
  · rw [if_pos h, if_pos h]
  · rw [if_neg h, if_neg h]
    simp only [ha, hk]
    exact scale_dot a (k j)

/-- With real rows a score is -infinity where masked and real where not. -/
private theorem scores_real (qp : Fin 512 → EReal) (kp : Fin 2048 → Fin 512 → EReal) (mk : Fin 2048 → BitVec 1)
    (a : Fin 512 → ℝ) (k : Fin 2048 → Fin 512 → ℝ) (ha : ∀ f, qp f = (a f : EReal)) (hk : ∀ j f, kp j f = (k j f : EReal))
    (j : Fin 2048) :
    (mk j = 1#1 → Spec.sR qp kp mk j = ⊥) ∧ (mk j ≠ 1#1 → ∃ r : ℝ, Spec.sR qp kp mk j = (r : EReal)) := by
  unfold Spec.sR
  refine ⟨fun h => by rw [if_pos h], fun h => ?_⟩
  rw [if_neg h]
  unfold Spec.d8
  rw [Ideal.div_coe (by norm_num : (8 : ℝ) ≠ 0)]
  simp only [ha, hk, ← EReal.coe_mul]
  rw [← coe_sum, ← EReal.coe_mul]
  exact ⟨_, rfl⟩

/-- The two arrangements agree on a row of real numbers with an unmasked key. -/
theorem attn_eq (qp : Fin 512 → EReal) (kp vp : Fin 2048 → Fin 512 → EReal) (mk : Fin 2048 → BitVec 1)
    (hq : ∀ f, ∃ r : ℝ, qp f = (r : EReal)) (hk : ∀ j f, ∃ r : ℝ, kp j f = (r : EReal))
    (hv : ∀ j f, ∃ r : ℝ, vp j f = (r : EReal)) (hm : ∃ j, mk j ≠ 1#1) (f : Fin 512) :
    Spec.attnK (fun f' => qp f' * Spec.c8) kp vp mk f = Spec.attnR qp kp vp mk f := by
  choose a ha using hq
  choose k hk using hk
  obtain ⟨j0, hj0⟩ := hm
  unfold Spec.attnK Spec.attnR Spec.lK Spec.lR Spec.pK Spec.pR Spec.mxK Spec.mxR
  rw [scores_eq qp kp mk a k ha hk]
  refine core (Spec.sR qp kp mk) (fun j => vp j f) (fun j => ?_) ⟨j0, (scores_real qp kp mk a k ha hk j0).2 hj0⟩
    (fun j => hv j f)
  by_cases h : mk j = 1#1
  · exact Or.inl ((scores_real qp kp mk a k ha hk j).1 h)
  · exact Or.inr ((scores_real qp kp mk a k ha hk j).2 h)

/-- The two arrangements of a whole row agree where the six float arguments are real and the mask row has an unmasked key. -/
theorem row_eq (x0 x1 x2 : (⟨3, ![4, 2048, 1024]⟩ : Shape).Idx → EReal) (x3 : (⟨3, ![4, 2048, 2048]⟩ : Shape).Idx → BitVec 1)
    (x4 x5 x6 : (⟨2, ![512, 1024]⟩ : Shape).Idx → EReal)
    (h0 : ∀ i, ∃ r : ℝ, x0 i = (r : EReal)) (h1 : ∀ i, ∃ r : ℝ, x1 i = (r : EReal)) (h2 : ∀ i, ∃ r : ℝ, x2 i = (r : EReal))
    (h4 : ∀ i, ∃ r : ℝ, x4 i = (r : EReal)) (h5 : ∀ i, ∃ r : ℝ, x5 i = (r : EReal)) (h6 : ∀ i, ∃ r : ℝ, x6 i = (r : EReal))
    (b : Fin 4) (i : Fin 2048) (hm : ∃ j : Fin 2048, x3 (Idealize.ShloMosaic.ValueIdx.ix3 b i j) ≠ 1#1) (f : Fin 512) :
    Spec.rowK x0 x1 x2 x3 x4 x5 x6 b i f = Spec.rowR x0 x1 x2 x3 x4 x5 x6 b i f := by
  unfold Spec.rowK Spec.rowR
  exact attn_eq _ _ _ _ (fun f' => dot_real _ _ (fun d => h0 _) (fun d => h4 _))
    (fun j f' => dot_real _ _ (fun d => h1 _) (fun d => h5 _)) (fun j f' => dot_real _ _ (fun d => h2 _) (fun d => h6 _)) hm f

end Cert.Math

end
-- ==== Proof.PreDecode.lean ====
/-
  What the precondition says of the arguments.

  The precondition is a conjunction: for each of the seven float arguments, every entry's absolute value is below
  +infinity, which on the extended reals says the entry is a real number; and no row of the mask is set throughout,
  which says every (batch, query) has a key whose mask bit is clear.
-/
import proofs.«405517_j32014686224684_3_alg».proof.Pre_finite_inputs
import proofs.«405517_j32014686224684_3_alg».proof.Proof.Gen.Pre_finite_inputs
import proofs.«405517_j32014686224684_3_alg».proof.Proof.Spec
import Idealize.ShloMosaic.Lib.ReduceAll
import Idealize.ShloMosaic.Lib.ValueIdx
import Idealize.ShloMosaic.PureOps.Ideal.Laws

set_option maxRecDepth 16384

noncomputable section

open scoped BigOperators

namespace Cert.PreDecode

open Idealize.ShloMosaic Idealize.ShloMosaic.ValueIdx
open Cert.Pre_finite_inputs

/-- The shape without axes has exactly one index. -/
instance : Subsingleton S_.Idx := ⟨fun a b => funext fun d => d.elim0⟩

/-- An extended real whose absolute value is below +infinity is a real number. -/
private theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- Where every entry of an array has its absolute value below +infinity (the conjunction over all entries is true),
    every entry is a real number. -/
private theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, x i = (r : EReal) := by
  intro i
  have h1 := Host.reduce_andi_all _ _ hr hu _ e i
  have h2 : Ideal.cmp .olt (max (x i) (-(x i))) (Ideal.ofBits .f32 0x7F800000#32) = 1#1 := h1
  rw [Spec.ofBits_pos_inf] at h2
  exact real_of_abs_lt_top _ h2

/-- A conjunction of bits that are all set, begun at a set bit, is set. -/
private theorem fold_andi_ones {ι : Type} (S : Finset ι) (f : ι → BitVec 1) (hf : ∀ k ∈ S, f k = 1#1) :
    S.fold IntOp.andi 1#1 f = 1#1 := by
  induction S using Finset.cons_induction with
  | empty => rfl
  | cons a S ha ih =>
    rw [Finset.fold_cons, hf a (Finset.mem_cons_self _ _), ih (fun k hk => hf k (Finset.mem_cons_of_mem hk))]
    decide

/-- A bit whose complement is set is not set. -/
private theorem ne_one_of_not_eq_one (v : BitVec 1) (h : ~~~v = 1#1) : v ≠ 1#1 := by
  revert v; decide

/-- The index of the mask over (batch b, query i) with key k on the last axis. -/
private theorem lift_eq (h : S4x2048x2048.Reduces [2] S4x2048) (b : Fin 4) (i : Fin 2048) (k : Fin (S4x2048x2048.size 2)) :
    h.lift (ix2 b i) k = ix3 b i ⟨k.val, k.isLt⟩ := by
  funext c
  apply Fin.ext
  rw [Shape.Reduces.lift_val]
  unfold Shape.Reduces.liftVal
  match c with
  | ⟨0, _⟩ => rfl
  | ⟨1, _⟩ => rfl
  | ⟨2, _⟩ => rfl

/-- The conjunction of two arrays of bits, at an index. -/
private theorem andi_apply {s : Shape} {w : Nat} (x y : IVec s w) (i : s.Idx) :
    andi x y i = IntOp.andi (x i) (y i) := rfl

/-- Under the precondition the six float arguments the attention rows use are real everywhere, and every mask row has a
    clear bit. -/
theorem decode [hF : Cert.Pre_finite_inputs.Facts] (a0 a1 a2 : FVec Ideal S4x2048x1024 .f32) (a3 : IVec S4x2048x2048 1)
    (a4 a5 a6 : FVec Ideal S512x1024 .f32) (a7 : FVec Ideal S1024x512 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a4 i = (r : EReal)) ∧ (∀ i, ∃ r : ℝ, a5 i = (r : EReal)) ∧ (∀ i, ∃ r : ℝ, a6 i = (r : EReal))
      ∧ (∀ (b : Fin 4) (i : Fin 2048), ∃ j : Fin 2048, a3 (ix3 b i j) ≠ 1#1) := by
  have h0 := congrFun h ValueIdx.ix0
  dsimp only [fn, fn_part1, fn_part2] at h0
  simp only [andi_apply, IntOp.andi_eq_one] at h0
  obtain ⟨⟨⟨⟨⟨⟨⟨e0, e1⟩, e2⟩, e4⟩, e5⟩, e6⟩, e7⟩, em⟩ := h0
  refine ⟨all_real a0 _ _ _ e0, all_real a1 _ _ _ e1, all_real a2 _ _ _ e2, all_real a4 _ _ _ e4,
    all_real a5 _ _ _ e5, all_real a6 _ _ _ e6, ?_⟩
  -- the mask: were every bit of row (b, i) set, the conjunction along the row would be set, and its complement clear
  intro b i
  by_contra hc
  have hall : ∀ j : Fin 2048, a3 (ix3 b i j) = 1#1 := fun j => by
    by_contra hj
    exact hc ⟨j, hj⟩
  have hn := Host.reduce_andi_all _ _ _ _ _ em (ix2 b i)
  refine ne_one_of_not_eq_one _ hn ?_
  have hR : S4x2048x2048.Reduces [2] S4x2048 := by decide
  rw [Host.reduce_eq_fold_single IntOp.andi a3 _ _ hR _ (ix2 b i)]
  refine fold_andi_ones _ _ fun k _ => ?_
  show a3 (hR.lift (ix2 b i) k) = 1#1
  rw [lift_eq]
  exact hall _

end Cert.PreDecode

end
-- ==== Proof.LibDot.lean ====
/-
  A plain matrix product read at an entry, at the ideal instance, over ANY dimension-number record whose fields are
  the plain ones ([1] x [0] contracted, [0] and [1] kept, no batch axes): the kernel's matmul into a zero accumulator and
  the host's dot_general are both the sum over k of a(r, k) * b(k, c), with k ranging over Fin K.

  eq_plain: a record with the plain fields IS DotDims.plain (the well-formedness proof is a proposition).
  plain_sum: the contraction sum of the plain record, re-indexed through its one coordinate.
  matmul_zero_at / dotGeneral_at: the two products at (r, c); kmatmul_at / hdot_at: the same over the printed spellings.
-/
import Idealize.ShloMosaic.Lib.ValueIdx
import Idealize.ShloMosaic.PureOps.Ideal.Laws

noncomputable section

open scoped BigOperators

namespace Cert.LibDot

open Idealize.ShloMosaic Idealize.ShloMosaic.ValueIdx

variable {M K N : Nat}

/-- A record whose six lists are the plain ones is the plain record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  cases d
  simp only at h1 h2 h3 h4 h5 h6
  subst h1 h2 h3 h4 h5 h6
  rfl

theorem plain_rank : (DotDims.plain M K N).contr.rank = 1 := rfl

theorem plain_size : (DotDims.plain M K N).contr.size ⟨0, by rw [plain_rank]; exact Nat.one_pos⟩ = K := rfl

/-- The left operand's index at output (r, c) and contraction position k is (r, k). -/
theorem plain_lhsIdx (r : Fin M) (c : Fin N) (k : Fin K) :
    (DotDims.plain M K N).lhsIdx (ix2 r c) ((contrEquiv1 (DotDims.plain M K N) K plain_rank plain_size).symm k) = ix2 r k := by
  funext ax
  apply Fin.ext
  match ax with
  | ⟨0, _⟩ => rfl
  | ⟨1, _⟩ =>
    exact ((DotDims.plain M K N).lhsIdx_val_of_single (cl := 1) rfl _ _).trans
      (contrEquiv1_symm_val (DotDims.plain M K N) K plain_rank plain_size k)

/-- The right operand's index at output (r, c) and contraction position k is (k, c). -/
theorem plain_rhsIdx (r : Fin M) (c : Fin N) (k : Fin K) :
    (DotDims.plain M K N).rhsIdx (ix2 r c) ((contrEquiv1 (DotDims.plain M K N) K plain_rank plain_size).symm k) = ix2 k c := by
  funext ax
  apply Fin.ext
  match ax with
  | ⟨0, _⟩ =>
    exact ((DotDims.plain M K N).rhsIdx_val_of_single (cr := 0) rfl _ _).trans
      (contrEquiv1_symm_val (DotDims.plain M K N) K plain_rank plain_size k)
  | ⟨1, _⟩ => rfl

/-- The plain record's contraction sum at (r, c) is the sum over k : Fin K of a(r, k) * b(k, c). -/
theorem plain_sum {φ₁ φ₂ : FTy} (a : FVec Ideal ⟨2, ![M, K]⟩ φ₁) (b : FVec Ideal ⟨2, ![K, N]⟩ φ₂) (r : Fin M) (c : Fin N) :
    (∑ k : (DotDims.plain M K N).contr.Idx,
        a ((DotDims.plain M K N).lhsIdx (ix2 r c) k) * b ((DotDims.plain M K N).rhsIdx (ix2 r c) k) : EReal)
      = ∑ k : Fin K, a (ix2 r k) * b (ix2 k c) := by
  rw [← Equiv.sum_comp (contrEquiv1 (DotDims.plain M K N) K plain_rank plain_size).symm]
  refine Finset.sum_congr rfl fun k _ => ?_
  rw [plain_lhsIdx, plain_rhsIdx]

/-- The kernel's matrix product into a zero accumulator, at (r, c). -/
theorem matmul_zero_at {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (b : FVec Ideal ⟨2, ![K, N]⟩ φ₂) (r : Fin M) (c : Fin N) :
    FloatOps.matmul d prec a b (constant ⟨2, ![M, N]⟩ .f32 0x00000000#32) (ix2 r c) = ∑ k : Fin K, a (ix2 r k) * b (ix2 k c) := by
  subst hd
  rw [Ideal.matmul_constant_zero_apply]
  exact plain_sum a b r c

/-- The host's dot_general, at (r, c). -/
theorem dotGeneral_at {φ₁ φ₂ : FTy} (d : DotDims ⟨2, ![M, K]⟩ ⟨2, ![K, N]⟩ ⟨2, ![M, N]⟩) (hd : d = DotDims.plain M K N)
    (prec : Option ContractPrecision) (sched : HostSchedule) (a : FVec Ideal ⟨2, ![M, K]⟩ φ₁) (b : FVec Ideal ⟨2, ![K, N]⟩ φ₂)
    (r : Fin M) (c : Fin N) :
    FloatOps.dotGeneral d prec sched a b (ix2 r c) = ∑ k : Fin K, a (ix2 r k) * b (ix2 k c) := by
  subst hd
  rw [Ideal.dotGeneral_apply]
  exact plain_sum a b r c

/-- The same, spelt with the kernel's vector operation. -/
theorem kmatmul_at {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (b : FVec Ideal ⟨2, ![K, N]⟩ φ₂) (r : Fin M) (c : Fin N) :
    matmul d prec a b (constant ⟨2, ![M, N]⟩ .f32 0x00000000#32) (ix2 r c) = ∑ k : Fin K, a (ix2 r k) * b (ix2 k c) :=
  matmul_zero_at d hd prec a b r c

/-- The same, spelt with the host's operation. -/
theorem hdot_at {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (b : FVec Ideal ⟨2, ![K, N]⟩ φ₂) (r : Fin M) (c : Fin N) :
    Host.dotGeneral d prec a b (ix2 r c) = ∑ k : Fin K, a (ix2 r k) * b (ix2 k c) :=
  dotGeneral_at d hd prec _ a b r c

end Cert.LibDot

end
-- ==== Proof.Reg0.lean ====
/-
  What the projection kernel leaves in its three output arrays, entry by entry.

  The projection kernel walks the 8192 rows of its three inputs in eight blocks of 1024 rows. At each block it multiplies
  the block of q (k, v) with the whole transposed weight matrix and writes the product into the same rows of its
  output; the product of q is also multiplied by one eighth. So row r, column f of an output is the inner product of
  row r of the input with column f of the weight matrix (times one eighth for q), whichever block r lies in.

  The steps: the product of a block with a matrix at an entry (p, q) is the inner product of the block's row p with the
  matrix's column q; block t of an input is rows 1024 t ... 1024 t + 1023 of the input and the block of a weight
  matrix is the whole matrix; so what is written back at block t is block t of one function of the whole arrays;
  the eight blocks cover every row (row r lies in block r / 1024), so the output array is that function.
-/
import proofs.«405517_j32014686224684_3_alg».proof.Proof.Gen.KernelIdeal.Frame
import proofs.«405517_j32014686224684_3_alg».proof.Proof.Spec
import proofs.«405517_j32014686224684_3_alg».proof.Proof.LibDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The three row arrays [8192, 1024] and the three transposed weight matrices [1024, 512] as the kernel finds them. -/
abbrev q2 (c : Dev nD) : FVec Ideal S8192x1024 .f32 := V c main_v8
abbrev k2 (c : Dev nD) : FVec Ideal S8192x1024 .f32 := V c main_v9
abbrev v2 (c : Dev nD) : FVec Ideal S8192x1024 .f32 := V c main_v10
abbrev wq (c : Dev nD) : FVec Ideal S1024x512 .bf16 := V c main_v1
abbrev wk (c : Dev nD) : FVec Ideal S1024x512 .bf16 := V c main_v3
abbrev wv (c : Dev nD) : FVec Ideal S1024x512 .bf16 := V c main_v5

/-! ## The product of one block with a matrix, at an entry -/

/-- The product's dimension numbers are the plain ones of [M, K] times [K, N]. -/
theorem dot_plain : dot_S1024x1024_S1024x512_S1024x512_1_0_0_1_n_n = DotDims.plain 1024 1024 512 :=
  Cert.LibDot.eq_plain _ rfl rfl rfl rfl rfl rfl

/-- Entry (r, f) of the first product: row r of the block against column f of the matrix, times one eighth (a change
    of float format changes nothing, and the product starts from zero). -/
theorem pay1_at (x0 : Vec Ideal S1024x1024 .f32) (x3 : Vec Ideal S1024x512 .bf16) (r : Fin 1024) (f : Fin 512) :
    k0_pay1 (F := Ideal) x0 x3 (ix2 r f)
      = Spec.dot (fun d : Fin 1024 => x0 (ix2 r d)) (fun d : Fin 1024 => x3 (ix2 d f)) * Spec.c8 := by
  unfold k0_pay1
  rw [shapeCast_self, shapeCast_self]
  rw [truncf_apply, mulf_apply, broadcast_apply]
  rw [Cert.LibDot.kmatmul_at _ dot_plain]
  show (∑ k : Fin 1024, x0 (ix2 r k) * x3 (ix2 k f)) * Ideal.ofBits .f32 0x3E000000#32 = _
  rw [Spec.ofBits_eighth]
  rfl

/-- Entry (r, f) of the second product: row r of the block against column f of the matrix. -/
theorem pay2_at (x0 : Vec Ideal S1024x1024 .f32) (x3 : Vec Ideal S1024x512 .bf16) (r : Fin 1024) (f : Fin 512) :
    k0_pay2 (F := Ideal) x0 x3 (ix2 r f)
      = Spec.dot (fun d : Fin 1024 => x0 (ix2 r d)) (fun d : Fin 1024 => x3 (ix2 d f)) := by
  unfold k0_pay2
  rw [shapeCast_self, shapeCast_self]
  rw [truncf_apply]
  rw [Cert.LibDot.kmatmul_at _ dot_plain]
  rfl

/-- Entry (r, f) of the third product: row r of the block against column f of the matrix. -/
theorem pay3_at (x0 : Vec Ideal S1024x1024 .f32) (x3 : Vec Ideal S1024x512 .bf16) (r : Fin 1024) (f : Fin 512) :
    k0_pay3 (F := Ideal) x0 x3 (ix2 r f)
      = Spec.dot (fun d : Fin 1024 => x0 (ix2 r d)) (fun d : Fin 1024 => x3 (ix2 d f)) := by
  unfold k0_pay3
  rw [shapeCast_self, shapeCast_self]
  rw [truncf_apply]
  rw [Cert.LibDot.kmatmul_at _ dot_plain]
  rfl

/-! ## The whole output as one function of the whole arrays -/

/-- Row (i 0) of an [8192, 1024] array against column (i 1) of a [1024, 512] matrix. -/
def rowDot (A : S8192x1024.Idx → EReal) (W : S1024x512.Idx → EReal) : S8192x512.Idx → EReal :=
  fun i => Spec.dot (fun d : Fin 1024 => A (ix2 (⟨(i 0).val, (i 0).isLt⟩ : Fin 8192) d))
    (fun d : Fin 1024 => W (ix2 d (⟨(i 1).val, (i 1).isLt⟩ : Fin 512)))

/-- The same, times one eighth. -/
def rowDotEighth (A : S8192x1024.Idx → EReal) (W : S1024x512.Idx → EReal) : S8192x512.Idx → EReal :=
  fun i => rowDot A W i * Spec.c8

/-- An inner product of a block's row p with a block's column q is the arrays' at i, once the block's row p is the
    array's row (i 0) and the block's column q is the matrix's column (i 1). -/
theorem dot_eq_rowDot (x0 : Vec Ideal S1024x1024 .f32) (x3 : Vec Ideal S1024x512 .bf16)
    (A : S8192x1024.Idx → EReal) (W : S1024x512.Idx → EReal) (p : Fin 1024) (q : Fin 512) (i : S8192x512.Idx)
    (h0 : ∀ d : Fin 1024, x0 (ix2 p d) = A (ix2 (⟨(i 0).val, (i 0).isLt⟩ : Fin 8192) d))
    (h3 : ∀ d : Fin 1024, x3 (ix2 d q) = W (ix2 d (⟨(i 1).val, (i 1).isLt⟩ : Fin 512))) :
    Spec.dot (fun d : Fin 1024 => x0 (ix2 p d)) (fun d : Fin 1024 => x3 (ix2 d q)) = rowDot A W i :=
  Finset.sum_congr rfl fun d _ => congrArg₂ (· * ·) (h0 d) (h3 d)

theorem off_zero : (![0, 0] : Fin 2 → Nat) = fun _ => 0 := funext fun a => by fin_cases a <;> rfl

/-! ## The query output -/

/-- The block positions, decided over the eight points: the query rows and the output move together, one block of
    1024 rows per point; the query weight matrix stays whole. -/
theorem index_facts6 : ∀ t : Fin cfg0.N,
    win0_0.index t (0 : Fin 2) = t.val ∧ win0_0.index t (1 : Fin 2) = 0
    ∧ win0_3.index t (0 : Fin 2) = 0 ∧ win0_3.index t (1 : Fin 2) = 0
    ∧ win0_6.index t (0 : Fin 2) = t.val ∧ win0_6.index t (1 : Fin 2) = 0 :=
  (by decide +kernel : ∀ t : Fin grid0.N, _)

/-- The product of two blocks at j is the arrays' function at i, once row (j 0) of the first block is row (i 0) of the
    array and column (j 1) of the second block is column (i 1) of the matrix. -/
theorem blockPay1 (x0 : Vec Ideal S1024x1024 .f32) (x3 : Vec Ideal S1024x512 .bf16)
    (A : S8192x1024.Idx → EReal) (W : S1024x512.Idx → EReal) (j : S1024x512.Idx) (i : S8192x512.Idx)
    (h0 : ∀ d : Fin 1024, x0 (ix2 (⟨(j 0).val, (j 0).isLt⟩ : Fin 1024) d) = A (ix2 (⟨(i 0).val, (i 0).isLt⟩ : Fin 8192) d))
    (h3 : ∀ d : Fin 1024, x3 (ix2 d (⟨(j 1).val, (j 1).isLt⟩ : Fin 512)) = W (ix2 d (⟨(i 1).val, (i 1).isLt⟩ : Fin 512))) :
    k0_pay1 (F := Ideal) x0 x3 j = rowDotEighth A W i := by
  obtain ⟨p, q, rfl⟩ : ∃ (p : Fin 1024) (q : Fin 512), j = ix2 p q := ⟨j 0, j 1, eq_ix2 j⟩
  rw [pay1_at]
  exact congrArg (· * Spec.c8) (dot_eq_rowDot x0 x3 A W p q i h0 h3)

/-- The block of the query rows at point t is rows 1024 t ... 1024 t + 1023 of the array. -/
theorem rows0_at (c : Dev nD) (t : Fin cfg0.N) (y : S1024x1024.Idx) (k : S8192x1024.Idx)
    (hk0 : (k 0).val = t.val * 1024 + (y 0).val) (hk1 : (k 1).val = (y 1).val) :
    (iblk0 V c 0 t : Vec Ideal S1024x1024 .f32) y = q2 V c k := by
  obtain ⟨e0, e1, -⟩ := index_facts6 t
  unfold iblk0
  rw [View.read_apply]
  show V c main_v8 _ = V c main_v8 _
  congr 1
  funext a
  apply Fin.ext
  match a with
  | ⟨0, _⟩ => show win0_0.index t (0 : Fin 2) * 1024 + 1 * (y 0).val = (k 0).val; rw [e0, hk0]; omega
  | ⟨1, _⟩ => show win0_0.index t (1 : Fin 2) * 1024 + 1 * (y 1).val = (k 1).val; rw [e1, hk1]; omega

/-- The block of the query weight matrix at any point is the whole matrix. -/
theorem whole3_at (c : Dev nD) (t : Fin cfg0.N) (y : S1024x512.Idx) (k : S1024x512.Idx)
    (hk0 : (k 0).val = (y 0).val) (hk1 : (k 1).val = (y 1).val) :
    (iblk0 V c 3 t : Vec Ideal S1024x512 .bf16) y = wq V c k := by
  obtain ⟨-, -, e0, e1, -⟩ := index_facts6 t
  unfold iblk0
  rw [View.read_apply]
  show V c main_v1 _ = V c main_v1 _
  congr 1
  funext a
  apply Fin.ext
  match a with
  | ⟨0, _⟩ => show win0_3.index t (0 : Fin 2) * 1024 + 1 * (y 0).val = (k 0).val; rw [e0, hk0]; omega
  | ⟨1, _⟩ => show win0_3.index t (1 : Fin 2) * 512 + 1 * (y 1).val = (k 1).val; rw [e1, hk1]; omega

/-- What point t writes back is block t of the one function of the whole arrays. -/
theorem flushed6_eq (c : Dev nD) (t : Fin cfg0.N) :
    (dat0 V c).flushed 6 t = ((cfg0.win 6).blk t).view.read (Elt Ideal) (rowDotEighth (q2 V c) (wq V c)) := by
  show (cfg0.win 6).cut (grid0.coords t) ((dat0 V c).after 6 t) = _
  rw [after0_6]
  unfold out0_6
  rw [View.canon_unit_zero off_zero]
  simp only [View.ld_unit_zero (S := S1024x1024) off_zero, View.ld_unit_zero (S := S1024x512) off_zero]
  obtain ⟨-, -, -, -, e0, e1⟩ := index_facts6 t
  funext j
  show k0_pay1 (F := Ideal) (iblk0 V c 0 t) (iblk0 V c 3 t) j
    = rowDotEighth (q2 V c) (wq V c) (((cfg0.win 6).blk t).view.emb j)
  refine blockPay1 (iblk0 V c 0 t) (iblk0 V c 3 t) (q2 V c) (wq V c) j (((cfg0.win 6).blk t).view.emb j)
    (fun d => ?_) (fun d => ?_)
  · refine rows0_at V c t _ _ ?_ rfl
    show win0_6.index t (0 : Fin 2) * 1024 + 1 * (j 0).val = t.val * 1024 + (j 0).val
    rw [e0]; omega
  · refine whole3_at V c t _ _ rfl ?_
    show win0_6.index t (1 : Fin 2) * 512 + 1 * (j 1).val = (j 1).val
    rw [e1]; omega

/-- An index of the output lies in point t's block iff each coordinate lies in the block's range on its axis. -/
theorem mem_blk6 (t : Fin cfg0.N) (i : S8192x512.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v11_0).slice (win0_6.rect t)).set ↔ _
  rw [View.set_slice_whole, Rect.mem_set_unit]
  exact Iff.rfl

/-- Every index of the output lies in some point's block: row r in the block of point r / 1024. -/
theorem cover6 (i : S8192x512.Idx) :
    ∃ t : Fin cfg0.N, (cfg0.win 6).flush t = true ∧ i ∈ ((cfg0.win 6).blk t).view.set := by
  have hi0 : (i 0).val < 8192 := (i 0).isLt
  have hi1 : (i 1).val < 512 := (i 1).isLt
  obtain ⟨t, ht⟩ : ∃ t : Fin cfg0.N, t.val = (i 0).val / 1024 :=
    ⟨⟨(i 0).val / 1024, lt_of_lt_of_eq (by omega : (i 0).val / 1024 < 8) N_0.symm⟩, rfl⟩
  obtain ⟨-, -, -, -, e0, e1⟩ := index_facts6 t
  refine ⟨t, flush0_6 t, ?_⟩
  rw [mem_blk6]
  intro a
  match a with
  | ⟨0, _⟩ =>
    show win0_6.index t (0 : Fin 2) * 1024 ≤ (i 0).val ∧ (i 0).val < win0_6.index t (0 : Fin 2) * 1024 + 1024
    rw [e0, ht]; omega
  | ⟨1, _⟩ =>
    show win0_6.index t (1 : Fin 2) * 512 ≤ (i 1).val ∧ (i 1).val < win0_6.index t (1 : Fin 2) * 512 + 512
    rw [e1]; omega

/-- So the output array ends as that function of the whole arrays. -/
theorem final6 (c : Dev nD) : (dat0 V c).arrAt 6 cfg0.N = rowDotEighth (q2 V c) (wq V c) :=
  (dat0 V c).arrAt_eq_of_cover 6 (rowDotEighth (q2 V c) (wq V c)) (fun t _ => flushed6_eq V c t) cover6

/-! ## The key output -/

/-- The block positions, decided over the eight points: the key rows and the output move together, one block of
    1024 rows per point; the key weight matrix stays whole. -/
theorem index_facts7 : ∀ t : Fin cfg0.N,
    win0_1.index t (0 : Fin 2) = t.val ∧ win0_1.index t (1 : Fin 2) = 0
    ∧ win0_4.index t (0 : Fin 2) = 0 ∧ win0_4.index t (1 : Fin 2) = 0
    ∧ win0_7.index t (0 : Fin 2) = t.val ∧ win0_7.index t (1 : Fin 2) = 0 :=
  (by decide +kernel : ∀ t : Fin grid0.N, _)

/-- The product of two blocks at j is the arrays' function at i, once row (j 0) of the first block is row (i 0) of the
    array and column (j 1) of the second block is column (i 1) of the matrix. -/
theorem blockPay2 (x0 : Vec Ideal S1024x1024 .f32) (x3 : Vec Ideal S1024x512 .bf16)
    (A : S8192x1024.Idx → EReal) (W : S1024x512.Idx → EReal) (j : S1024x512.Idx) (i : S8192x512.Idx)
    (h0 : ∀ d : Fin 1024, x0 (ix2 (⟨(j 0).val, (j 0).isLt⟩ : Fin 1024) d) = A (ix2 (⟨(i 0).val, (i 0).isLt⟩ : Fin 8192) d))
    (h3 : ∀ d : Fin 1024, x3 (ix2 d (⟨(j 1).val, (j 1).isLt⟩ : Fin 512)) = W (ix2 d (⟨(i 1).val, (i 1).isLt⟩ : Fin 512))) :
    k0_pay2 (F := Ideal) x0 x3 j = rowDot A W i := by
  obtain ⟨p, q, rfl⟩ : ∃ (p : Fin 1024) (q : Fin 512), j = ix2 p q := ⟨j 0, j 1, eq_ix2 j⟩
  rw [pay2_at]
  exact dot_eq_rowDot x0 x3 A W p q i h0 h3

/-- The block of the key rows at point t is rows 1024 t ... 1024 t + 1023 of the array. -/
theorem rows1_at (c : Dev nD) (t : Fin cfg0.N) (y : S1024x1024.Idx) (k : S8192x1024.Idx)
    (hk0 : (k 0).val = t.val * 1024 + (y 0).val) (hk1 : (k 1).val = (y 1).val) :
    (iblk0 V c 1 t : Vec Ideal S1024x1024 .f32) y = k2 V c k := by
  obtain ⟨e0, e1, -⟩ := index_facts7 t
  unfold iblk0
  rw [View.read_apply]
  show V c main_v9 _ = V c main_v9 _
  congr 1
  funext a
  apply Fin.ext
  match a with
  | ⟨0, _⟩ => show win0_1.index t (0 : Fin 2) * 1024 + 1 * (y 0).val = (k 0).val; rw [e0, hk0]; omega
  | ⟨1, _⟩ => show win0_1.index t (1 : Fin 2) * 1024 + 1 * (y 1).val = (k 1).val; rw [e1, hk1]; omega

/-- The block of the key weight matrix at any point is the whole matrix. -/
theorem whole4_at (c : Dev nD) (t : Fin cfg0.N) (y : S1024x512.Idx) (k : S1024x512.Idx)
    (hk0 : (k 0).val = (y 0).val) (hk1 : (k 1).val = (y 1).val) :
    (iblk0 V c 4 t : Vec Ideal S1024x512 .bf16) y = wk V c k := by
  obtain ⟨-, -, e0, e1, -⟩ := index_facts7 t
  unfold iblk0
  rw [View.read_apply]
  show V c main_v3 _ = V c main_v3 _
  congr 1
  funext a
  apply Fin.ext
  match a with
  | ⟨0, _⟩ => show win0_4.index t (0 : Fin 2) * 1024 + 1 * (y 0).val = (k 0).val; rw [e0, hk0]; omega
  | ⟨1, _⟩ => show win0_4.index t (1 : Fin 2) * 512 + 1 * (y 1).val = (k 1).val; rw [e1, hk1]; omega

/-- What point t writes back is block t of the one function of the whole arrays. -/
theorem flushed7_eq (c : Dev nD) (t : Fin cfg0.N) :
    (dat0 V c).flushed 7 t = ((cfg0.win 7).blk t).view.read (Elt Ideal) (rowDot (k2 V c) (wk V c)) := by
  show (cfg0.win 7).cut (grid0.coords t) ((dat0 V c).after 7 t) = _
  rw [after0_7]
  unfold out0_7
  rw [View.canon_unit_zero off_zero]
  simp only [View.ld_unit_zero (S := S1024x1024) off_zero, View.ld_unit_zero (S := S1024x512) off_zero]
  obtain ⟨-, -, -, -, e0, e1⟩ := index_facts7 t
  funext j
  show k0_pay2 (F := Ideal) (iblk0 V c 1 t) (iblk0 V c 4 t) j
    = rowDot (k2 V c) (wk V c) (((cfg0.win 7).blk t).view.emb j)
  refine blockPay2 (iblk0 V c 1 t) (iblk0 V c 4 t) (k2 V c) (wk V c) j (((cfg0.win 7).blk t).view.emb j)
    (fun d => ?_) (fun d => ?_)
  · refine rows1_at V c t _ _ ?_ rfl
    show win0_7.index t (0 : Fin 2) * 1024 + 1 * (j 0).val = t.val * 1024 + (j 0).val
    rw [e0]; omega
  · refine whole4_at V c t _ _ rfl ?_
    show win0_7.index t (1 : Fin 2) * 512 + 1 * (j 1).val = (j 1).val
    rw [e1]; omega

/-- An index of the output lies in point t's block iff each coordinate lies in the block's range on its axis. -/
theorem mem_blk7 (t : Fin cfg0.N) (i : S8192x512.Idx) :
    i ∈ ((cfg0.win 7).blk t).view.set ↔ ∀ a : Fin 2, win0_7.index t a * S1024x512.size a ≤ (i a).val
      ∧ (i a).val < win0_7.index t a * S1024x512.size a + S1024x512.size a := by
  show i ∈ ((View.whole main_v11_1).slice (win0_7.rect t)).set ↔ _
  rw [View.set_slice_whole, Rect.mem_set_unit]
  exact Iff.rfl

/-- Every index of the output lies in some point's block: row r in the block of point r / 1024. -/
theorem cover7 (i : S8192x512.Idx) :
    ∃ t : Fin cfg0.N, (cfg0.win 7).flush t = true ∧ i ∈ ((cfg0.win 7).blk t).view.set := by
  have hi0 : (i 0).val < 8192 := (i 0).isLt
  have hi1 : (i 1).val < 512 := (i 1).isLt
  obtain ⟨t, ht⟩ : ∃ t : Fin cfg0.N, t.val = (i 0).val / 1024 :=
    ⟨⟨(i 0).val / 1024, lt_of_lt_of_eq (by omega : (i 0).val / 1024 < 8) N_0.symm⟩, rfl⟩
  obtain ⟨-, -, -, -, e0, e1⟩ := index_facts7 t
  refine ⟨t, flush0_7 t, ?_⟩
  rw [mem_blk7]
  intro a
  match a with
  | ⟨0, _⟩ =>
    show win0_7.index t (0 : Fin 2) * 1024 ≤ (i 0).val ∧ (i 0).val < win0_7.index t (0 : Fin 2) * 1024 + 1024
    rw [e0, ht]; omega
  | ⟨1, _⟩ =>
    show win0_7.index t (1 : Fin 2) * 512 ≤ (i 1).val ∧ (i 1).val < win0_7.index t (1 : Fin 2) * 512 + 512
    rw [e1]; omega

/-- So the output array ends as that function of the whole arrays. -/
theorem final7 (c : Dev nD) : (dat0 V c).arrAt 7 cfg0.N = rowDot (k2 V c) (wk V c) :=
  (dat0 V c).arrAt_eq_of_cover 7 (rowDot (k2 V c) (wk V c)) (fun t _ => flushed7_eq V c t) cover7

/-! ## The value output -/

/-- The block positions, decided over the eight points: the value rows and the output move together, one block of
    1024 rows per point; the value weight matrix stays whole. -/
theorem index_facts8 : ∀ t : Fin cfg0.N,
    win0_2.index t (0 : Fin 2) = t.val ∧ win0_2.index t (1 : Fin 2) = 0
    ∧ win0_5.index t (0 : Fin 2) = 0 ∧ win0_5.index t (1 : Fin 2) = 0
    ∧ win0_8.index t (0 : Fin 2) = t.val ∧ win0_8.index t (1 : Fin 2) = 0 :=
  (by decide +kernel : ∀ t : Fin grid0.N, _)

/-- The product of two blocks at j is the arrays' function at i, once row (j 0) of the first block is row (i 0) of the
    array and column (j 1) of the second block is column (i 1) of the matrix. -/
theorem blockPay3 (x0 : Vec Ideal S1024x1024 .f32) (x3 : Vec Ideal S1024x512 .bf16)
    (A : S8192x1024.Idx → EReal) (W : S1024x512.Idx → EReal) (j : S1024x512.Idx) (i : S8192x512.Idx)
    (h0 : ∀ d : Fin 1024, x0 (ix2 (⟨(j 0).val, (j 0).isLt⟩ : Fin 1024) d) = A (ix2 (⟨(i 0).val, (i 0).isLt⟩ : Fin 8192) d))
    (h3 : ∀ d : Fin 1024, x3 (ix2 d (⟨(j 1).val, (j 1).isLt⟩ : Fin 512)) = W (ix2 d (⟨(i 1).val, (i 1).isLt⟩ : Fin 512))) :
    k0_pay3 (F := Ideal) x0 x3 j = rowDot A W i := by
  obtain ⟨p, q, rfl⟩ : ∃ (p : Fin 1024) (q : Fin 512), j = ix2 p q := ⟨j 0, j 1, eq_ix2 j⟩
  rw [pay3_at]
  exact dot_eq_rowDot x0 x3 A W p q i h0 h3

/-- The block of the value rows at point t is rows 1024 t ... 1024 t + 1023 of the array. -/
theorem rows2_at (c : Dev nD) (t : Fin cfg0.N) (y : S1024x1024.Idx) (k : S8192x1024.Idx)
    (hk0 : (k 0).val = t.val * 1024 + (y 0).val) (hk1 : (k 1).val = (y 1).val) :
    (iblk0 V c 2 t : Vec Ideal S1024x1024 .f32) y = v2 V c k := by
  obtain ⟨e0, e1, -⟩ := index_facts8 t
  unfold iblk0
  rw [View.read_apply]
  show V c main_v10 _ = V c main_v10 _
  congr 1
  funext a
  apply Fin.ext
  match a with
  | ⟨0, _⟩ => show win0_2.index t (0 : Fin 2) * 1024 + 1 * (y 0).val = (k 0).val; rw [e0, hk0]; omega
  | ⟨1, _⟩ => show win0_2.index t (1 : Fin 2) * 1024 + 1 * (y 1).val = (k 1).val; rw [e1, hk1]; omega

/-- The block of the value weight matrix at any point is the whole matrix. -/
theorem whole5_at (c : Dev nD) (t : Fin cfg0.N) (y : S1024x512.Idx) (k : S1024x512.Idx)
    (hk0 : (k 0).val = (y 0).val) (hk1 : (k 1).val = (y 1).val) :
    (iblk0 V c 5 t : Vec Ideal S1024x512 .bf16) y = wv V c k := by
  obtain ⟨-, -, e0, e1, -⟩ := index_facts8 t
  unfold iblk0
  rw [View.read_apply]
  show V c main_v5 _ = V c main_v5 _
  congr 1
  funext a
  apply Fin.ext
  match a with
  | ⟨0, _⟩ => show win0_5.index t (0 : Fin 2) * 1024 + 1 * (y 0).val = (k 0).val; rw [e0, hk0]; omega
  | ⟨1, _⟩ => show win0_5.index t (1 : Fin 2) * 512 + 1 * (y 1).val = (k 1).val; rw [e1, hk1]; omega

/-- What point t writes back is block t of the one function of the whole arrays. -/
theorem flushed8_eq (c : Dev nD) (t : Fin cfg0.N) :
    (dat0 V c).flushed 8 t = ((cfg0.win 8).blk t).view.read (Elt Ideal) (rowDot (v2 V c) (wv V c)) := by
  show (cfg0.win 8).cut (grid0.coords t) ((dat0 V c).after 8 t) = _
  rw [after0_8]
  unfold out0_8
  rw [View.canon_unit_zero off_zero]
  simp only [View.ld_unit_zero (S := S1024x1024) off_zero, View.ld_unit_zero (S := S1024x512) off_zero]
  obtain ⟨-, -, -, -, e0, e1⟩ := index_facts8 t
  funext j
  show k0_pay3 (F := Ideal) (iblk0 V c 2 t) (iblk0 V c 5 t) j
    = rowDot (v2 V c) (wv V c) (((cfg0.win 8).blk t).view.emb j)
  refine blockPay3 (iblk0 V c 2 t) (iblk0 V c 5 t) (v2 V c) (wv V c) j (((cfg0.win 8).blk t).view.emb j)
    (fun d => ?_) (fun d => ?_)
  · refine rows2_at V c t _ _ ?_ rfl
    show win0_8.index t (0 : Fin 2) * 1024 + 1 * (j 0).val = t.val * 1024 + (j 0).val
    rw [e0]; omega
  · refine whole5_at V c t _ _ rfl ?_
    show win0_8.index t (1 : Fin 2) * 512 + 1 * (j 1).val = (j 1).val
    rw [e1]; omega

/-- An index of the output lies in point t's block iff each coordinate lies in the block's range on its axis. -/
theorem mem_blk8 (t : Fin cfg0.N) (i : S8192x512.Idx) :
    i ∈ ((cfg0.win 8).blk t).view.set ↔ ∀ a : Fin 2, win0_8.index t a * S1024x512.size a ≤ (i a).val
      ∧ (i a).val < win0_8.index t a * S1024x512.size a + S1024x512.size a := by
  show i ∈ ((View.whole main_v11_2).slice (win0_8.rect t)).set ↔ _
  rw [View.set_slice_whole, Rect.mem_set_unit]
  exact Iff.rfl

/-- Every index of the output lies in some point's block: row r in the block of point r / 1024. -/
theorem cover8 (i : S8192x512.Idx) :
    ∃ t : Fin cfg0.N, (cfg0.win 8).flush t = true ∧ i ∈ ((cfg0.win 8).blk t).view.set := by
  have hi0 : (i 0).val < 8192 := (i 0).isLt
  have hi1 : (i 1).val < 512 := (i 1).isLt
  obtain ⟨t, ht⟩ : ∃ t : Fin cfg0.N, t.val = (i 0).val / 1024 :=
    ⟨⟨(i 0).val / 1024, lt_of_lt_of_eq (by omega : (i 0).val / 1024 < 8) N_0.symm⟩, rfl⟩
  obtain ⟨-, -, -, -, e0, e1⟩ := index_facts8 t
  refine ⟨t, flush0_8 t, ?_⟩
  rw [mem_blk8]
  intro a
  match a with
  | ⟨0, _⟩ =>
    show win0_8.index t (0 : Fin 2) * 1024 ≤ (i 0).val ∧ (i 0).val < win0_8.index t (0 : Fin 2) * 1024 + 1024
    rw [e0, ht]; omega
  | ⟨1, _⟩ =>
    show win0_8.index t (1 : Fin 2) * 512 ≤ (i 1).val ∧ (i 1).val < win0_8.index t (1 : Fin 2) * 512 + 512
    rw [e1]; omega

/-- So the output array ends as that function of the whole arrays. -/
theorem final8 (c : Dev nD) : (dat0 V c).arrAt 8 cfg0.N = rowDot (v2 V c) (wv V c) :=
  (dat0 V c).arrAt_eq_of_cover 8 (rowDot (v2 V c) (wv V c)) (fun t _ => flushed8_eq V c t) cover8

/-! ## The three arrays, entry by entry -/

/-- The projected and scaled query array at (r, f). -/
theorem arr6 (c : Dev nD) (r : Fin 8192) (f : Fin 512) :
    ((dat0 V c).arrAt 6 cfg0.N : S8192x512.Idx → EReal) (ix2 r f)
      = Spec.dot (fun d : Fin 1024 => q2 V c (ix2 r d)) (fun d : Fin 1024 => wq V c (ix2 d f)) * Spec.c8 := by
  rw [final6]
  rfl

/-- The projected key array at (r, f). -/
theorem arr7 (c : Dev nD) (r : Fin 8192) (f : Fin 512) :
    ((dat0 V c).arrAt 7 cfg0.N : S8192x512.Idx → EReal) (ix2 r f)
      = Spec.dot (fun d : Fin 1024 => k2 V c (ix2 r d)) (fun d : Fin 1024 => wk V c (ix2 d f)) := by
  rw [final7]
  rfl

/-- The projected value array at (r, f). -/
theorem arr8 (c : Dev nD) (r : Fin 8192) (f : Fin 512) :
    ((dat0 V c).arrAt 8 cfg0.N : S8192x512.Idx → EReal) (ix2 r f)
      = Spec.dot (fun d : Fin 1024 => v2 V c (ix2 r d)) (fun d : Fin 1024 => wv V c (ix2 d f)) := by
  rw [final8]
  rfl

end Cert.KernelIdeal.Reg0

end
-- ==== Proof.Reg1Pay.lean ====
/-
  What the attention kernel's body computes from its blocks, entry by entry.

  The body holds a block of 256 query rows for each of the 4 batches, all 2048 key rows and value rows of each batch and
  the block's mask words. Entry (b, i, f) of its first result is one attention row: the row of batch b, query i, against
  the keys and values of batch b, masked where the mask word is not zero.
-/
import proofs.«405517_j32014686224684_3_alg».proof.Proof.Gen.KernelIdeal.Skeleton
import proofs.«405517_j32014686224684_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg1Pay

open Idealize.ShloMosaic Idealize.ShloMosaic.TcCoe Idealize.ShloMosaic.ValueIdx Idealize.SL.Sem
open Cert.KernelIdeal Cert.KernelIdeal.Gen

/-! ## The two batched products at an entry

  The score product keeps the batch axis, takes row i of the left operand and row j of the right one and contracts
  their last axes. The value product keeps the batch axis, takes row i of the left operand and column f of the right one
  and contracts the left's last axis with the right's middle axis. -/

/-- The score product's left index: the batch coordinate. -/
private theorem qk_lhs_0 (i : S4x256x2048.Idx) (q : dot_S4x256x512_S4x2048x512_S4x256x2048_2_2_1_1_0_0.contr.Idx) :
    (dot_S4x256x512_S4x2048x512_S4x256x2048_2_2_1_1_0_0.lhsIdx i q 0).val = (i 0).val := by
  unfold DotDims.lhsIdx
  rw [dif_pos (show (0 : Fin S4x256x512.rank) ∈ dot_S4x256x512_S4x2048x512_S4x256x2048_2_2_1_1_0_0.lhsBatch by decide)]
  rfl
/-- The score product's left index: the query row. -/
private theorem qk_lhs_1 (i : S4x256x2048.Idx) (q : dot_S4x256x512_S4x2048x512_S4x256x2048_2_2_1_1_0_0.contr.Idx) :
    (dot_S4x256x512_S4x2048x512_S4x256x2048_2_2_1_1_0_0.lhsIdx i q 1).val = (i 1).val := by
  unfold DotDims.lhsIdx
  rw [dif_neg (show ¬(1 : Fin S4x256x512.rank) ∈ dot_S4x256x512_S4x2048x512_S4x256x2048_2_2_1_1_0_0.lhsBatch by decide), dif_pos (show (1 : Fin S4x256x512.rank) ∈ dot_S4x256x512_S4x2048x512_S4x256x2048_2_2_1_1_0_0.lhsNonContracting by decide)]
  rfl
/-- The score product's left index: the contracted position. -/
private theorem qk_lhs_2 (i : S4x256x2048.Idx) (q : dot_S4x256x512_S4x2048x512_S4x256x2048_2_2_1_1_0_0.contr.Idx) :
    (dot_S4x256x512_S4x2048x512_S4x256x2048_2_2_1_1_0_0.lhsIdx i q 2).val = (q ⟨0, by decide⟩).val :=
  dot_S4x256x512_S4x2048x512_S4x256x2048_2_2_1_1_0_0.lhsIdx_val_of_single rfl i q
/-- The score product's right index: the batch coordinate. -/
private theorem qk_rhs_0 (i : S4x256x2048.Idx) (q : dot_S4x256x512_S4x2048x512_S4x256x2048_2_2_1_1_0_0.contr.Idx) :
    (dot_S4x256x512_S4x2048x512_S4x256x2048_2_2_1_1_0_0.rhsIdx i q 0).val = (i 0).val := by
  unfold DotDims.rhsIdx
  rw [dif_pos (show (0 : Fin S4x2048x512.rank) ∈ dot_S4x256x512_S4x2048x512_S4x256x2048_2_2_1_1_0_0.rhsBatch by decide)]
  rfl
/-- The score product's right index: the key row. -/
private theorem qk_rhs_1 (i : S4x256x2048.Idx) (q : dot_S4x256x512_S4x2048x512_S4x256x2048_2_2_1_1_0_0.contr.Idx) :
    (dot_S4x256x512_S4x2048x512_S4x256x2048_2_2_1_1_0_0.rhsIdx i q 1).val = (i 2).val := by
  unfold DotDims.rhsIdx
  rw [dif_neg (show ¬(1 : Fin S4x2048x512.rank) ∈ dot_S4x256x512_S4x2048x512_S4x256x2048_2_2_1_1_0_0.rhsBatch by decide), dif_pos (show (1 : Fin S4x2048x512.rank) ∈ dot_S4x256x512_S4x2048x512_S4x256x2048_2_2_1_1_0_0.rhsNonContracting by decide)]
  rfl
/-- The score product's right index: the contracted position. -/
private theorem qk_rhs_2 (i : S4x256x2048.Idx) (q : dot_S4x256x512_S4x2048x512_S4x256x2048_2_2_1_1_0_0.contr.Idx) :
    (dot_S4x256x512_S4x2048x512_S4x256x2048_2_2_1_1_0_0.rhsIdx i q 2).val = (q ⟨0, by decide⟩).val :=
  dot_S4x256x512_S4x2048x512_S4x256x2048_2_2_1_1_0_0.rhsIdx_val_of_single rfl i q

/-- The score product at (b, i, j): the inner product of row (b, i) of the left operand and row (b, j) of the right one. -/
private theorem qk_at (a : FVec Ideal S4x256x512 .bf16) (k : FVec Ideal S4x2048x512 .bf16) (b : Fin 4) (i : Fin 256) (j : Fin 2048) :
    matmul dot_S4x256x512_S4x2048x512_S4x256x2048_2_2_1_1_0_0 none a k (constant (F := Ideal) S4x256x2048 .f32 0x00000000#32) (ix3 b i j)
      = ∑ d : Fin 512, a (ix3 b i d) * k (ix3 b j d) := by
  refine (Ideal.matmul_constant_zero_apply dot_S4x256x512_S4x2048x512_S4x256x2048_2_2_1_1_0_0 none a k (ix3 b i j)).trans ?_
  rw [← Equiv.sum_comp (contrEquiv1 dot_S4x256x512_S4x2048x512_S4x256x2048_2_2_1_1_0_0 512 rfl rfl).symm]
  refine Finset.sum_congr rfl fun d _ => ?_
  have hd := contrEquiv1_symm_val dot_S4x256x512_S4x2048x512_S4x256x2048_2_2_1_1_0_0 512 rfl rfl d
  have el : dot_S4x256x512_S4x2048x512_S4x256x2048_2_2_1_1_0_0.lhsIdx (ix3 b i j) ((contrEquiv1 dot_S4x256x512_S4x2048x512_S4x256x2048_2_2_1_1_0_0 512 rfl rfl).symm d) = ix3 b i d := funext fun ax => Fin.ext (by
    match ax with
    | ⟨0, _⟩ => exact qk_lhs_0 _ _
    | ⟨1, _⟩ => exact qk_lhs_1 _ _
    | ⟨2, _⟩ => exact (qk_lhs_2 _ _).trans hd)
  have er : dot_S4x256x512_S4x2048x512_S4x256x2048_2_2_1_1_0_0.rhsIdx (ix3 b i j) ((contrEquiv1 dot_S4x256x512_S4x2048x512_S4x256x2048_2_2_1_1_0_0 512 rfl rfl).symm d) = ix3 b j d := funext fun ax => Fin.ext (by
    match ax with
    | ⟨0, _⟩ => exact qk_rhs_0 _ _
    | ⟨1, _⟩ => exact qk_rhs_1 _ _
    | ⟨2, _⟩ => exact (qk_rhs_2 _ _).trans hd)
  rw [el, er]

/-- The value product's left index: the batch coordinate. -/
private theorem pv_lhs_0 (i : S4x256x512.Idx) (q : dot_S4x256x2048_S4x2048x512_S4x256x512_2_1_1_2_0_0.contr.Idx) :
    (dot_S4x256x2048_S4x2048x512_S4x256x512_2_1_1_2_0_0.lhsIdx i q 0).val = (i 0).val := by
  unfold DotDims.lhsIdx
  rw [dif_pos (show (0 : Fin S4x256x2048.rank) ∈ dot_S4x256x2048_S4x2048x512_S4x256x512_2_1_1_2_0_0.lhsBatch by decide)]
  rfl
/-- The value product's left index: the query row. -/
private theorem pv_lhs_1 (i : S4x256x512.Idx) (q : dot_S4x256x2048_S4x2048x512_S4x256x512_2_1_1_2_0_0.contr.Idx) :
    (dot_S4x256x2048_S4x2048x512_S4x256x512_2_1_1_2_0_0.lhsIdx i q 1).val = (i 1).val := by
  unfold DotDims.lhsIdx
  rw [dif_neg (show ¬(1 : Fin S4x256x2048.rank) ∈ dot_S4x256x2048_S4x2048x512_S4x256x512_2_1_1_2_0_0.lhsBatch by decide), dif_pos (show (1 : Fin S4x256x2048.rank) ∈ dot_S4x256x2048_S4x2048x512_S4x256x512_2_1_1_2_0_0.lhsNonContracting by decide)]
  rfl
/-- The value product's left index: the contracted position. -/
private theorem pv_lhs_2 (i : S4x256x512.Idx) (q : dot_S4x256x2048_S4x2048x512_S4x256x512_2_1_1_2_0_0.contr.Idx) :
    (dot_S4x256x2048_S4x2048x512_S4x256x512_2_1_1_2_0_0.lhsIdx i q 2).val = (q ⟨0, by decide⟩).val :=
  dot_S4x256x2048_S4x2048x512_S4x256x512_2_1_1_2_0_0.lhsIdx_val_of_single rfl i q
/-- The value product's right index: the batch coordinate. -/
private theorem pv_rhs_0 (i : S4x256x512.Idx) (q : dot_S4x256x2048_S4x2048x512_S4x256x512_2_1_1_2_0_0.contr.Idx) :
    (dot_S4x256x2048_S4x2048x512_S4x256x512_2_1_1_2_0_0.rhsIdx i q 0).val = (i 0).val := by
  unfold DotDims.rhsIdx
  rw [dif_pos (show (0 : Fin S4x2048x512.rank) ∈ dot_S4x256x2048_S4x2048x512_S4x256x512_2_1_1_2_0_0.rhsBatch by decide)]
  rfl
/-- The value product's right index: the contracted position. -/
private theorem pv_rhs_1 (i : S4x256x512.Idx) (q : dot_S4x256x2048_S4x2048x512_S4x256x512_2_1_1_2_0_0.contr.Idx) :
    (dot_S4x256x2048_S4x2048x512_S4x256x512_2_1_1_2_0_0.rhsIdx i q 1).val = (q ⟨0, by decide⟩).val :=
  dot_S4x256x2048_S4x2048x512_S4x256x512_2_1_1_2_0_0.rhsIdx_val_of_single rfl i q
/-- The value product's right index: the column. -/
private theorem pv_rhs_2 (i : S4x256x512.Idx) (q : dot_S4x256x2048_S4x2048x512_S4x256x512_2_1_1_2_0_0.contr.Idx) :
    (dot_S4x256x2048_S4x2048x512_S4x256x512_2_1_1_2_0_0.rhsIdx i q 2).val = (i 2).val := by
  unfold DotDims.rhsIdx
  rw [dif_neg (show ¬(2 : Fin S4x2048x512.rank) ∈ dot_S4x256x2048_S4x2048x512_S4x256x512_2_1_1_2_0_0.rhsBatch by decide), dif_pos (show (2 : Fin S4x2048x512.rank) ∈ dot_S4x256x2048_S4x2048x512_S4x256x512_2_1_1_2_0_0.rhsNonContracting by decide)]
  rfl

/-- The value product at (b, i, f): the sum over the keys j of the left operand at (b, i, j) times the right one at (b, j, f). -/
private theorem pv_at (p : FVec Ideal S4x256x2048 .bf16) (v : FVec Ideal S4x2048x512 .bf16) (b : Fin 4) (i : Fin 256) (f : Fin 512) :
    matmul dot_S4x256x2048_S4x2048x512_S4x256x512_2_1_1_2_0_0 none p v (constant (F := Ideal) S4x256x512 .f32 0x00000000#32) (ix3 b i f)
      = ∑ j : Fin 2048, p (ix3 b i j) * v (ix3 b j f) := by
  refine (Ideal.matmul_constant_zero_apply dot_S4x256x2048_S4x2048x512_S4x256x512_2_1_1_2_0_0 none p v (ix3 b i f)).trans ?_
  rw [← Equiv.sum_comp (contrEquiv1 dot_S4x256x2048_S4x2048x512_S4x256x512_2_1_1_2_0_0 2048 rfl rfl).symm]
  refine Finset.sum_congr rfl fun j _ => ?_
  have hj := contrEquiv1_symm_val dot_S4x256x2048_S4x2048x512_S4x256x512_2_1_1_2_0_0 2048 rfl rfl j
  have el : dot_S4x256x2048_S4x2048x512_S4x256x512_2_1_1_2_0_0.lhsIdx (ix3 b i f) ((contrEquiv1 dot_S4x256x2048_S4x2048x512_S4x256x512_2_1_1_2_0_0 2048 rfl rfl).symm j) = ix3 b i j := funext fun ax => Fin.ext (by
    match ax with
    | ⟨0, _⟩ => exact pv_lhs_0 _ _
    | ⟨1, _⟩ => exact pv_lhs_1 _ _
    | ⟨2, _⟩ => exact (pv_lhs_2 _ _).trans hj)
  have er : dot_S4x256x2048_S4x2048x512_S4x256x512_2_1_1_2_0_0.rhsIdx (ix3 b i f) ((contrEquiv1 dot_S4x256x2048_S4x2048x512_S4x256x512_2_1_1_2_0_0 2048 rfl rfl).symm j) = ix3 b j f := funext fun ax => Fin.ext (by
    match ax with
    | ⟨0, _⟩ => exact pv_rhs_0 _ _
    | ⟨1, _⟩ => exact (pv_rhs_1 _ _).trans hj
    | ⟨2, _⟩ => exact pv_rhs_2 _ _)
  rw [el, er]

/-! ## Keeping the reduced axis as a unit axis, and spreading it back -/

/-- An [a, b] array seen as [a, b, 1] keeps its entries. -/
private theorem cast_ab_ab1 {α : Type} {a b : ℕ} (x : (⟨2, ![a, b]⟩ : Shape).Idx → α)
    (h : (⟨2, ![a, b]⟩ : Shape).ShapeCasts ⟨3, ![a, b, 1]⟩) (g : Fin a) (r : Fin b) (u : Fin 1) :
    shapeCast ⟨3, ![a, b, 1]⟩ x h (ix3 g r u) = x (ix2 g r) :=
  shapeCast_apply x h _ _ (by
    have hu : u.val = 0 := by omega
    rw [Shape.rowMajor_val_three, Shape.rowMajor_val_two]
    show g.val * b + r.val = (g.val * b + r.val) * 1 + u.val
    rw [hu, Nat.mul_one, Nat.add_zero])

/-- An [a, b, 1] array spread along the last axis to [a, b, c] repeats entry (g, r, 0) at every (g, r, n). -/
private theorem bcast_ab1_abc {α : Type} {a b c : ℕ} (v : (⟨3, ![a, b, 1]⟩ : Shape).Idx → α)
    (h : (⟨3, ![a, b, 1]⟩ : Shape).Broadcasts ⟨3, ![a, b, c]⟩) (g : Fin a) (r : Fin b) (n : Fin c) :
    broadcastTo ⟨3, ![a, b, c]⟩ v h (ix3 g r n) = v (ix3 g r (0 : Fin 1)) := by
  refine broadcastTo_apply v h (ix3 g r n) (ix3 g r (0 : Fin 1)) fun ax => ?_
  match ax with
  | ⟨0, _⟩ =>
    show g.val = if a = 1 then 0 else g.val
    split
    · have := g.isLt; omega
    · rfl
  | ⟨1, _⟩ =>
    show r.val = if b = 1 then 0 else r.val
    split
    · have := r.isLt; omega
    · rfl
  | ⟨2, _⟩ => rfl

/-! ## The row maximum and the row sum -/

/-- The index over (b, i) with j put on the reduced last axis is (b, i, j). -/
private theorem lift_eq (h : S4x256x2048.Reduces [2] S4x256) (b : Fin 4) (i : Fin 256) (j : Fin 2048) :
    h.lift (ix2 b i) j = ix3 b i j :=
  funext fun ax => Fin.ext (by
    match ax with
    | ⟨0, _⟩ => rfl
    | ⟨1, _⟩ => rfl
    | ⟨2, _⟩ => rfl)

/-- The maximum over the last axis, from minus infinity, at (b, i): the largest entry of row (b, i), or minus infinity. -/
private theorem rowmax_at (src : FVec Ideal S4x256x2048 .f32) (h : S4x256x2048.Reduces [2] S4x256) (hφ : FKind.Formats .f32)
    (hacc : (0xFF800000#32 : BitVec 32) = FKind.maximumf.neutral .f32 hφ) (b : Fin 4) (i : Fin 256) :
    multiReduction (F := Ideal) .maximumf [2] S4x256 src 0xFF800000#32 h hφ hacc (ix2 b i)
      = (Finset.univ : Finset (Fin 2048)).fold max ⊥ (fun j : Fin 2048 => src (ix3 b i j)) := by
  refine (Ideal.multiReduction_maximumf_single src 0xFF800000#32 h hφ hacc (ix2 b i)).trans ?_
  have hf : (fun j : Fin 2048 => src (h.lift (ix2 b i) j)) = fun j : Fin 2048 => src (ix3 b i j) :=
    funext fun j => congrArg src (lift_eq h b i j)
  exact (congrArg (fun z : EReal => (Finset.univ : Finset (Fin 2048)).fold max z (fun j : Fin 2048 => src (h.lift (ix2 b i) j)))
      Spec.ofBits_neg_inf).trans
    (congrArg (fun g : Fin 2048 → EReal => (Finset.univ : Finset (Fin 2048)).fold max ⊥ g) hf)

/-- The sum over the last axis at (b, i): the sum of row (b, i). -/
private theorem rowsum_at (src : FVec Ideal S4x256x2048 .f32) (h : S4x256x2048.Reduces [2] S4x256) (hφ : FKind.Formats .f32)
    (hacc : (0x00000000#32 : BitVec 32) = FKind.add.neutral .f32 hφ) (b : Fin 4) (i : Fin 256) :
    multiReduction (F := Ideal) .add [2] S4x256 src 0x00000000#32 h hφ hacc (ix2 b i) = ∑ j : Fin 2048, src (ix3 b i j) := by
  refine (Ideal.multiReduction_add_single src 0x00000000#32 h hφ hacc (ix2 b i)).trans ?_
  exact Finset.sum_congr rfl fun j _ => congrArg src (lift_eq h b i j)

/-! ## The three stages of a row -/

/-- The masked scores at (b, i, j): minus infinity where the mask word is not zero, else the inner product of the
    query row with key row j. -/
private theorem score_at (q : FVec Ideal S4x256x512 .bf16) (k : FVec Ideal S4x2048x512 .bf16) (w : IVec S4x256x2048 32)
    (qs : Fin 512 → EReal) (kp : Fin 2048 → Fin 512 → EReal) (b : Fin 4) (i : Fin 256)
    (hq : ∀ d, q (ix3 b i d) = qs d) (hk : ∀ j d, k (ix3 b j d) = kp j d) (j : Fin 2048) :
    select (cmpi .ne w (constantI S4x256x2048 32 0#32)) (broadcast S4x256x2048 (Scalar.ofBits (F := Ideal) .f32 0xFF800000#32))
        (matmul dot_S4x256x512_S4x2048x512_S4x256x2048_2_2_1_1_0_0 none q k (constant (F := Ideal) S4x256x2048 .f32 0x00000000#32)) (ix3 b i j)
      = Spec.sK qs kp (fun j' : Fin 2048 => IntOp.cmpi .ne (w (ix3 b i j')) 0#32) j := by
  refine (select_apply _ _ _ _).trans ?_
  rw [qk_at q k b i j]
  unfold Spec.sK
  show (if IntOp.cmpi .ne (w (ix3 b i j)) 0#32 = 1#1 then Ideal.ofBits .f32 0xFF800000#32 else ∑ d : Fin 512, q (ix3 b i d) * k (ix3 b j d)) = _
  rw [Spec.ofBits_neg_inf]
  refine congrArg (fun z : EReal => if IntOp.cmpi .ne (w (ix3 b i j)) 0#32 = 1#1 then ⊥ else z) ?_
  exact Finset.sum_congr rfl fun d _ => by rw [hq d, hk j d]

/-- The weights at (b, i, j): the exponential of the score less the row's largest score. -/
private theorem weight_at (s : FVec Ideal S4x256x2048 .f32) (hr : S4x256x2048.Reduces [2] S4x256) (hφ : FKind.Formats .f32)
    (hacc : (0xFF800000#32 : BitVec 32) = FKind.maximumf.neutral .f32 hφ) (hsc : S4x256.ShapeCasts S4x256x1)
    (hb : S4x256x1.Broadcasts S4x256x2048)
    (qs : Fin 512 → EReal) (kp : Fin 2048 → Fin 512 → EReal) (mk : Fin 2048 → BitVec 1) (b : Fin 4) (i : Fin 256)
    (hs : ∀ j, s (ix3 b i j) = Spec.sK qs kp mk j) (j : Fin 2048) :
    exp (subf s (broadcastTo S4x256x2048
        (shapeCast S4x256x1 (multiReduction (F := Ideal) .maximumf [2] S4x256 s 0xFF800000#32 hr hφ hacc) hsc) hb)) (ix3 b i j)
      = Spec.pK qs kp mk j := by
  have hfun : (fun j' : Fin 2048 => s (ix3 b i j')) = Spec.sK qs kp mk := funext hs
  have e1 : broadcastTo S4x256x2048
        (shapeCast S4x256x1 (multiReduction (F := Ideal) .maximumf [2] S4x256 s 0xFF800000#32 hr hφ hacc) hsc) hb (ix3 b i j)
      = Spec.mxK qs kp mk :=
    (bcast_ab1_abc _ hb b i j).trans ((cast_ab_ab1 _ hsc b i 0).trans ((rowmax_at s hr hφ hacc b i).trans
      (congrArg (fun g : Fin 2048 → EReal => (Finset.univ : Finset (Fin 2048)).fold max ⊥ g) hfun)))
  show Ideal.exp (s (ix3 b i j) - broadcastTo S4x256x2048
        (shapeCast S4x256x1 (multiReduction (F := Ideal) .maximumf [2] S4x256 s 0xFF800000#32 hr hφ hacc) hsc) hb (ix3 b i j)) = _
  rw [e1, hs j]
  rfl

/-- The result at (b, i, f): the weighted sum of the values at f, times the reciprocal of the sum of the weights. -/
private theorem out_at (p : FVec Ideal S4x256x2048 .f32) (v : FVec Ideal S4x2048x512 .bf16) (hlt : FTy.bits .bf16 < FTy.bits .f32)
    (hr : S4x256x2048.Reduces [2] S4x256) (hφ : FKind.Formats .f32)
    (hacc : (0x00000000#32 : BitVec 32) = FKind.add.neutral .f32 hφ) (hsc : S4x256.ShapeCasts S4x256x1)
    (hb : S4x256x1.Broadcasts S4x256x512)
    (qs : Fin 512 → EReal) (kp vp : Fin 2048 → Fin 512 → EReal) (mk : Fin 2048 → BitVec 1) (b : Fin 4) (i : Fin 256) (f : Fin 512)
    (hp : ∀ j, p (ix3 b i j) = Spec.pK qs kp mk j) (hv : ∀ j, v (ix3 b j f) = vp j f) :
    mulf (matmul dot_S4x256x2048_S4x2048x512_S4x256x512_2_1_1_2_0_0 none (truncf .bf16 p hlt) v (constant (F := Ideal) S4x256x512 .f32 0x00000000#32))
        (broadcastTo S4x256x512 (divf (broadcast S4x256x1 (Scalar.ofBits (F := Ideal) .f32 0x3F800000#32))
          (shapeCast S4x256x1 (multiReduction (F := Ideal) .add [2] S4x256 p 0x00000000#32 hr hφ hacc) hsc)) hb) (ix3 b i f)
      = Spec.attnK qs kp vp mk f := by
  refine (mulf_apply _ _ _).trans ?_
  have e1 : matmul dot_S4x256x2048_S4x2048x512_S4x256x512_2_1_1_2_0_0 none (truncf .bf16 p hlt) v (constant (F := Ideal) S4x256x512 .f32 0x00000000#32) (ix3 b i f)
      = ∑ j : Fin 2048, Spec.pK qs kp mk j * vp j f :=
    (pv_at (truncf .bf16 p hlt) v b i f).trans (Finset.sum_congr rfl fun j _ => by
      rw [truncf_apply, hp j, hv j])
  have e2 : broadcastTo S4x256x512 (divf (broadcast S4x256x1 (Scalar.ofBits (F := Ideal) .f32 0x3F800000#32))
          (shapeCast S4x256x1 (multiReduction (F := Ideal) .add [2] S4x256 p 0x00000000#32 hr hφ hacc) hsc)) hb (ix3 b i f)
      = Ideal.div 1 (Spec.lK qs kp mk) := by
    refine (bcast_ab1_abc _ hb b i f).trans ?_
    refine (divf_apply _ _ _).trans ?_
    have h1 : broadcast S4x256x1 (Scalar.ofBits (F := Ideal) .f32 0x3F800000#32) (ix3 b i (0 : Fin 1)) = 1 := Spec.ofBits_one
    have h2 : shapeCast S4x256x1 (multiReduction (F := Ideal) .add [2] S4x256 p 0x00000000#32 hr hφ hacc) hsc (ix3 b i (0 : Fin 1))
        = Spec.lK qs kp mk :=
      (cast_ab_ab1 _ hsc b i 0).trans ((rowsum_at p hr hφ hacc b i).trans (Finset.sum_congr rfl fun j _ => hp j))
    rw [h1, h2]
  rw [e1, e2]
  rfl

/-! ## The body's first result at an entry -/

/-- The first result of the body at (b, i, f): the attention row of batch b and query i, at column f. -/
theorem pay1_at (x0 : Vec Ideal S4x256x512 .bf16) (x1 x2 : Vec Ideal S4x2048x512 .bf16) (x3 : Vec Ideal S4x256x2048 .i32)
    (b : Fin 4) (i : Fin 256) (f : Fin 512) :
    k1_pay1 (F := Ideal) x0 x1 x2 x3 (ix3 b i f)
      = Spec.attnK (fun f' : Fin 512 => x0 (ix3 b i f')) (fun (j : Fin 2048) (f' : Fin 512) => x1 (ix3 b j f'))
          (fun (j : Fin 2048) (f' : Fin 512) => x2 (ix3 b j f')) (fun j : Fin 2048 => IntOp.cmpi .ne (x3 (ix3 b i j)) 0#32) f := by
  unfold k1_pay1
  refine out_at _ _ _ _ _ _ _ _ _ _ _ _ b i f (fun j => ?_) (fun j => ?_)
  · refine weight_at _ _ _ _ _ _ _ _ _ b i (fun j' => ?_) j
    exact score_at _ _ _ _ _ b i (fun d => congrFun (shapeCast_self x0 _) _) (fun j'' d => congrFun (shapeCast_self x1 _) _) j'
  · exact congrFun (shapeCast_self x2 _) _

end Cert.KernelIdeal.Reg1Pay

end
-- ==== Proof.LibCast3.lean ====
/-
  Four re-layouts of rank-2 and rank-3 arrays read at an entry, over coordinates (general: any sizes a, b, c).

  An [a, b, c] array and an [a*b, c] array hold the same entries in the same row-major order: row kk of the second is
  (kk / b, kk % b) of the first, and (g, r) of the first is row g*b + r of the second. An [a, c] array seen as [a, 1, c] keeps
  its entries; an [a, 1, c] array spread along the middle axis to [a, b, c] repeats entry (g, 0, n) at every (g, r, n).
-/
import Idealize.ShloMosaic.Lib.ValueIdx
import Idealize.ShloMosaic.Lib.ValueLayout
import Idealize.ShloMosaic.Lib.Pipeline.Value

noncomputable section

namespace Cert.LibCast3

open Idealize.ShloMosaic Idealize.ShloMosaic.ValueIdx

variable {α : Type}

/-- [a, b, c] seen as [m, c] with m = a * b: row kk is (kk / b, kk % b). -/
theorem cast_abc_mc {a b c m : ℕ} (hm : m = a * b) (hb : 0 < b) (x : (⟨3, ![a, b, c]⟩ : Shape).Idx → α)
    (h : (⟨3, ![a, b, c]⟩ : Shape).ShapeCasts ⟨2, ![m, c]⟩) (kk : Fin m) (n : Fin c) :
    shapeCast ⟨2, ![m, c]⟩ x h (ix2 kk n)
      = x (ix3 (⟨kk.val / b, Nat.div_lt_of_lt_mul (lt_of_lt_of_eq kk.isLt (hm.trans (Nat.mul_comm a b)))⟩ : Fin a)
            (⟨kk.val % b, Nat.mod_lt _ hb⟩ : Fin b) n) :=
  shapeCast_apply x h _ _ (by
    rw [Shape.rowMajor_val_three, Shape.rowMajor_val_two]
    show (kk.val / b * b + kk.val % b) * c + n.val = kk.val * c + n.val
    rw [Nat.div_add_mod'])

/-- [m, c] seen as [a, b, c] with m = a * b: (g, r) is row g * b + r. -/
theorem cast_mc_abc {a b c m : ℕ} (hm : m = a * b) (x : (⟨2, ![m, c]⟩ : Shape).Idx → α)
    (h : (⟨2, ![m, c]⟩ : Shape).ShapeCasts ⟨3, ![a, b, c]⟩) (g : Fin a) (r : Fin b) (n : Fin c) :
    shapeCast ⟨3, ![a, b, c]⟩ x h (ix3 g r n)
      = x (ix2 (⟨g.val * b + r.val, by
            have hg := g.isLt; have hr := r.isLt; rw [hm]
            calc g.val * b + r.val < g.val * b + b := by omega
              _ = (g.val + 1) * b := by rw [Nat.add_mul, Nat.one_mul]
              _ ≤ a * b := Nat.mul_le_mul_right b hg⟩ : Fin m) n) :=
  shapeCast_apply x h _ _ (by
    rw [Shape.rowMajor_val_three, Shape.rowMajor_val_two]
    rfl)

/-- [a, c] seen as [a, 1, c] keeps its entries. -/
theorem cast_ac_a1c {a c : ℕ} (x : (⟨2, ![a, c]⟩ : Shape).Idx → α)
    (h : (⟨2, ![a, c]⟩ : Shape).ShapeCasts ⟨3, ![a, 1, c]⟩) (g : Fin a) (u : Fin 1) (n : Fin c) :
    shapeCast ⟨3, ![a, 1, c]⟩ x h (ix3 g u n) = x (ix2 g n) :=
  shapeCast_apply x h _ _ (by
    have hu : u.val = 0 := by omega
    rw [Shape.rowMajor_val_three, Shape.rowMajor_val_two]
    show g.val * c + n.val = (g.val * 1 + u.val) * c + n.val
    rw [hu, Nat.mul_one, Nat.add_zero])

/-- [a, 1, c] spread to [a, b, c] repeats (g, 0, n) along the middle axis. -/
theorem bcast_a1c_abc {a b c : ℕ} (hc : c ≠ 1) (ha : a ≠ 1) (v : (⟨3, ![a, 1, c]⟩ : Shape).Idx → α)
    (h : (⟨3, ![a, 1, c]⟩ : Shape).Broadcasts ⟨3, ![a, b, c]⟩) (g : Fin a) (r : Fin b) (n : Fin c) :
    broadcastTo ⟨3, ![a, b, c]⟩ v h (ix3 g r n) = v (ix3 g (0 : Fin 1) n) := by
  refine broadcastTo_apply v h (ix3 g r n) (ix3 g (0 : Fin 1) n) fun ax => ?_
  match ax with
  | ⟨0, _⟩ =>
    show g.val = if a = 1 then 0 else g.val
    rw [if_neg ha]
  | ⟨1, _⟩ => rfl
  | ⟨2, _⟩ =>
    show n.val = if c = 1 then 0 else n.val
    rw [if_neg hc]

end Cert.LibCast3

end
-- ==== Proof.Reg1PayX.lean ====
/-
  The attention kernel's second result from its first, entry by entry.

  The body reads its first result [4, 256, 512] as 1024 rows of 512 numbers (row b * 256 + i is (b, i)), multiplies the
  rows with the output weight matrix [512, 1024], and reads the 1024 product rows back as [4, 256, 1024]. So entry
  (b, i, d) of the second result is the inner product of row (b, i) of the first result with column d of the matrix.
-/
import proofs.«405517_j32014686224684_3_alg».proof.Proof.Gen.KernelIdeal.Skeleton
import proofs.«405517_j32014686224684_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«405517_j32014686224684_3_alg».proof.Proof.LibDot
import proofs.«405517_j32014686224684_3_alg».proof.Proof.LibCast3

set_option maxRecDepth 16384

noncomputable section

open scoped BigOperators

namespace Cert.KernelIdeal.Reg1PayX

open Idealize.ShloMosaic Idealize.ShloMosaic.TcCoe Idealize.ShloMosaic.ValueIdx Idealize.SL.Sem
open Cert.KernelIdeal Cert.KernelIdeal.Gen

/-- Row b * 256 + i of the 1024 rows is below 1024. -/
private theorem row_lt (b : Fin 4) (i : Fin 256) : b.val * 256 + i.val < 1024 := by
  have hb := b.isLt
  have hi := i.isLt
  omega

/-- The [4, 256, 512] array read as 1024 rows of 512: row b * 256 + i is row (b, i). -/
private theorem rows_at {α : Type} (y : S4x256x512.Idx → α) (h : S4x256x512.ShapeCasts S1024x512)
    (b : Fin 4) (i : Fin 256) (f : Fin 512) :
    shapeCast S1024x512 y h (ix2 (⟨b.val * 256 + i.val, row_lt b i⟩ : Fin 1024) f) = y (ix3 b i f) :=
  shapeCast_apply y h _ _ (by
    rw [Shape.rowMajor_val_three, Shape.rowMajor_val_two]
    rfl)

/-- The product of the 1024 rows with the weight matrix, read back as [4, 256, 1024], at (b, i, d): over any array y
    in place of the first result. -/
private theorem product_at (y : FVec Ideal S4x256x512 .f32) (w : FVec Ideal S512x1024 .bf16)
    (hlt : FTy.bits .bf16 < FTy.bits .f32) (h1 : S4x256x512.ShapeCasts S1024x512)
    (h2 : S512x1024.ShapeCasts S512x1024) (h3 : S1024x1024.ShapeCasts S4x256x1024)
    (b : Fin 4) (i : Fin 256) (d : Fin 1024) :
    shapeCast S4x256x1024
        (matmul dot_S1024x512_S512x1024_S1024x1024_1_0_0_1_n_n none
          (shapeCast S1024x512 (truncf .bf16 y hlt) h1) (shapeCast S512x1024 w h2)
          (constant S1024x1024 .f32 0x00000000#32)) h3 (ix3 b i d)
      = ∑ f : Fin 512, y (ix3 b i f) * w (ix2 f d) := by
  rw [Cert.LibCast3.cast_mc_abc (a := 4) (b := 256) (c := 1024) (m := 1024) rfl _ h3 b i d]
  rw [Cert.LibDot.kmatmul_at dot_S1024x512_S512x1024_S1024x1024_1_0_0_1_n_n
    (Cert.LibDot.eq_plain _ rfl rfl rfl rfl rfl rfl) none _ _ _ d]
  refine Finset.sum_congr rfl fun f _ => ?_
  rw [rows_at (truncf .bf16 y hlt) h1 b i f, shapeCast_self]
  rfl

/-- The second result of the body at (b, i, d): the first result's row (b, i) against column d of the weight matrix. -/
theorem pay2_at (x0 : Vec Ideal S4x256x512 .bf16) (x1 x2 : Vec Ideal S4x2048x512 .bf16) (x3 : Vec Ideal S4x256x2048 .i32)
    (x4 : Vec Ideal S512x1024 .bf16) (b : Fin 4) (i : Fin 256) (d : Fin 1024) :
    k1_pay2 (F := Ideal) x0 x1 x2 x3 x4 (ix3 b i d)
      = ∑ f : Fin 512, k1_pay1 (F := Ideal) x0 x1 x2 x3 (ix3 b i f) * x4 (ix2 f d) :=
  product_at (k1_pay1 (F := Ideal) x0 x1 x2 x3) x4 _ _ _ _ b i d

end Cert.KernelIdeal.Reg1PayX

end
-- ==== Proof.Reg1.lean ====
/-
  What the attention kernel leaves in its two output arrays, entry by entry.

  The attention kernel walks the 2048 query rows in eight blocks of 256 rows, all 4 batches at once. At each block it
  reads the block's query rows and mask words, and all keys, values and the weight matrix, and writes the body's two
  results into the same rows of its two outputs. So entry (b, i, f) of the context array is the attention row of batch
  b and query i whichever block i lies in, and entry (b, i, d) of the projected array is that row against column d of
  the weight matrix.
-/
import proofs.«405517_j32014686224684_3_alg».proof.Proof.Gen.KernelIdeal.Frame
import proofs.«405517_j32014686224684_3_alg».proof.Proof.Spec
import proofs.«405517_j32014686224684_3_alg».proof.Proof.Reg1Pay
import proofs.«405517_j32014686224684_3_alg».proof.Proof.Reg1PayX
import Idealize.ShloMosaic.Lib.Pipeline.Value
import Idealize.ShloMosaic.Lib.ValueIdx

set_option maxRecDepth 16384

noncomputable section

open scoped BigOperators

namespace Cert.KernelIdeal.Reg1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The scaled queries, keys and values [4, 2048, 512], the mask words [4, 2048, 2048] and the transposed output weight
    matrix [512, 1024] as the kernel finds them. -/
abbrev qs3 (c : Dev nD) : FVec Ideal S4x2048x512 .bf16 := V c main_v12
abbrev kp3 (c : Dev nD) : FVec Ideal S4x2048x512 .bf16 := V c main_v13
abbrev vp3 (c : Dev nD) : FVec Ideal S4x2048x512 .bf16 := V c main_v14
abbrev mk3 (c : Dev nD) : IVec S4x2048x2048 32 := V c main_v15
abbrev wf (c : Dev nD) : FVec Ideal S512x1024 .bf16 := V c main_v7

/-- The attention row of batch b and query i over the arrays the kernel finds, at column f. -/
def row (c : Dev nD) (b : Fin 4) (i : Fin 2048) (f : Fin 512) : EReal :=
  Spec.attnK (fun f' : Fin 512 => qs3 V c (ix3 b i f')) (fun (j : Fin 2048) (f' : Fin 512) => kp3 V c (ix3 b j f'))
    (fun (j : Fin 2048) (f' : Fin 512) => vp3 V c (ix3 b j f')) (fun j : Fin 2048 => IntOp.cmpi .ne (mk3 V c (ix3 b i j)) 0#32) f

/-! ## Where each block sits in its array -/

/-- Three zero offsets, however they are spelt. -/
private theorem hz3 : (![0, 0, 0] : Fin 3 → Nat) = fun _ => 0 := funext fun a => by fin_cases a <;> rfl
/-- Two zero offsets, however they are spelt. -/
private theorem hz2 : (![0, 0] : Fin 2 → Nat) = fun _ => 0 := funext fun a => by fin_cases a <;> rfl

/-- The walk has eight points. -/
private theorem t_lt (t : Fin cfg1.N) : t.val < 8 := lt_of_lt_of_eq t.isLt N_1

/-- Row i' of the block at point t is query row t * 256 + i'. -/
def qrow (t : Fin cfg1.N) (i' : Fin 256) : Fin 2048 :=
  ⟨t.val * 256 + i'.val, by have := t_lt t; have := i'.isLt; omega⟩

/-- The block indices at point t: the query rows, the mask words and the two outputs move along the rows with t; the
    keys, the values and the weight matrix stay whole. -/
private theorem idx_facts : ∀ t : Fin cfg1.N,
    (win1_0.index t (0 : Fin 3) = 0 ∧ win1_0.index t (1 : Fin 3) = t.val ∧ win1_0.index t (2 : Fin 3) = 0)
    ∧ (win1_1.index t (0 : Fin 3) = 0 ∧ win1_1.index t (1 : Fin 3) = 0 ∧ win1_1.index t (2 : Fin 3) = 0)
    ∧ (win1_2.index t (0 : Fin 3) = 0 ∧ win1_2.index t (1 : Fin 3) = 0 ∧ win1_2.index t (2 : Fin 3) = 0)
    ∧ (win1_3.index t (0 : Fin 3) = 0 ∧ win1_3.index t (1 : Fin 3) = t.val ∧ win1_3.index t (2 : Fin 3) = 0)
    ∧ (win1_4.index t (0 : Fin 2) = 0 ∧ win1_4.index t (1 : Fin 2) = 0)
    ∧ (win1_5.index t (0 : Fin 3) = 0 ∧ win1_5.index t (1 : Fin 3) = t.val ∧ win1_5.index t (2 : Fin 3) = 0)
    ∧ (win1_6.index t (0 : Fin 3) = 0 ∧ win1_6.index t (1 : Fin 3) = t.val ∧ win1_6.index t (2 : Fin 3) = 0) :=
  (by decide +kernel : ∀ t : Fin grid1.N, _)

/-- The query block at point t, at (b, i', f'), is the query array at (b, t * 256 + i', f'). -/
private theorem blk_q (c : Dev nD) (t : Fin cfg1.N) (b : Fin 4) (i' : Fin 256) (f' : Fin 512) :
    (iblk1 V c 0 t : Vec Ideal S4x256x512 .bf16) (ix3 b i' f') = qs3 V c (ix3 b (qrow t i') f') := by
  obtain ⟨⟨e0, e1, e2⟩, -⟩ := idx_facts t
  show V c main_v12 (((cfg1.win 0).blk t).view.emb (ix3 b i' f')) = V c main_v12 (ix3 b (qrow t i') f')
  congr 1
  funext a; apply Fin.ext
  match a with
  | ⟨0, _⟩ => show win1_0.index t (0 : Fin 3) * 4 + 1 * b.val = b.val; omega
  | ⟨1, _⟩ => show win1_0.index t (1 : Fin 3) * 256 + 1 * i'.val = t.val * 256 + i'.val; omega
  | ⟨2, _⟩ => show win1_0.index t (2 : Fin 3) * 512 + 1 * f'.val = f'.val; omega

/-- The key block at every point is the whole key array. -/
private theorem blk_k (c : Dev nD) (t : Fin cfg1.N) (b : Fin 4) (j : Fin 2048) (f' : Fin 512) :
    (iblk1 V c 1 t : Vec Ideal S4x2048x512 .bf16) (ix3 b j f') = kp3 V c (ix3 b j f') := by
  obtain ⟨-, ⟨e0, e1, e2⟩, -⟩ := idx_facts t
  show V c main_v13 (((cfg1.win 1).blk t).view.emb (ix3 b j f')) = V c main_v13 (ix3 b j f')
  congr 1
  funext a; apply Fin.ext
  match a with
  | ⟨0, _⟩ => show win1_1.index t (0 : Fin 3) * 4 + 1 * b.val = b.val; omega
  | ⟨1, _⟩ => show win1_1.index t (1 : Fin 3) * 2048 + 1 * j.val = j.val; omega
  | ⟨2, _⟩ => show win1_1.index t (2 : Fin 3) * 512 + 1 * f'.val = f'.val; omega

/-- The value block at every point is the whole value array. -/
private theorem blk_v (c : Dev nD) (t : Fin cfg1.N) (b : Fin 4) (j : Fin 2048) (f' : Fin 512) :
    (iblk1 V c 2 t : Vec Ideal S4x2048x512 .bf16) (ix3 b j f') = vp3 V c (ix3 b j f') := by
  obtain ⟨-, -, ⟨e0, e1, e2⟩, -⟩ := idx_facts t
  show V c main_v14 (((cfg1.win 2).blk t).view.emb (ix3 b j f')) = V c main_v14 (ix3 b j f')
  congr 1
  funext a; apply Fin.ext
  match a with
  | ⟨0, _⟩ => show win1_2.index t (0 : Fin 3) * 4 + 1 * b.val = b.val; omega
  | ⟨1, _⟩ => show win1_2.index t (1 : Fin 3) * 2048 + 1 * j.val = j.val; omega
  | ⟨2, _⟩ => show win1_2.index t (2 : Fin 3) * 512 + 1 * f'.val = f'.val; omega

/-- The mask block at point t, at (b, i', j), is the mask array at (b, t * 256 + i', j). -/
private theorem blk_m (c : Dev nD) (t : Fin cfg1.N) (b : Fin 4) (i' : Fin 256) (j : Fin 2048) :
    (iblk1 V c 3 t : Vec Ideal S4x256x2048 .i32) (ix3 b i' j) = mk3 V c (ix3 b (qrow t i') j) := by
  obtain ⟨-, -, -, ⟨e0, e1, e2⟩, -⟩ := idx_facts t
  show V c main_v15 (((cfg1.win 3).blk t).view.emb (ix3 b i' j)) = V c main_v15 (ix3 b (qrow t i') j)
  congr 1
  funext a; apply Fin.ext
  match a with
  | ⟨0, _⟩ => show win1_3.index t (0 : Fin 3) * 4 + 1 * b.val = b.val; omega
  | ⟨1, _⟩ => show win1_3.index t (1 : Fin 3) * 256 + 1 * i'.val = t.val * 256 + i'.val; omega
  | ⟨2, _⟩ => show win1_3.index t (2 : Fin 3) * 2048 + 1 * j.val = j.val; omega

/-- The weight block at every point is the whole weight matrix. -/
private theorem blk_w (c : Dev nD) (t : Fin cfg1.N) (f : Fin 512) (d : Fin 1024) :
    (iblk1 V c 4 t : Vec Ideal S512x1024 .bf16) (ix2 f d) = wf V c (ix2 f d) := by
  obtain ⟨-, -, -, -, ⟨e0, e1⟩, -⟩ := idx_facts t
  show V c main_v7 (((cfg1.win 4).blk t).view.emb (ix2 f d)) = V c main_v7 (ix2 f d)
  congr 1
  funext a; apply Fin.ext
  match a with
  | ⟨0, _⟩ => show win1_4.index t (0 : Fin 2) * 512 + 1 * f.val = f.val; omega
  | ⟨1, _⟩ => show win1_4.index t (1 : Fin 2) * 1024 + 1 * d.val = d.val; omega

/-! ## The body's first result at a point, over the arrays -/

/-- Two attention rows over equal rows of numbers are equal. -/
private theorem attnK_congr {qs qs' : Fin 512 → EReal} {kp kp' vp vp' : Fin 2048 → Fin 512 → EReal}
    {mk mk' : Fin 2048 → BitVec 1} (h0 : qs = qs') (h1 : kp = kp') (h2 : vp = vp') (h3 : mk = mk') (f : Fin 512) :
    Spec.attnK qs kp vp mk f = Spec.attnK qs' kp' vp' mk' f := by
  subst h0 h1 h2 h3; rfl

/-- At point t the body's first result at (b, i', f) is the attention row of batch b and query t * 256 + i'. -/
private theorem pay1_point (c : Dev nD) (t : Fin cfg1.N) (b : Fin 4) (i' : Fin 256) (f : Fin 512) :
    k1_pay1 (F := Ideal) (iblk1 V c 0 t) (iblk1 V c 1 t) (iblk1 V c 2 t) (iblk1 V c 3 t) (ix3 b i' f)
      = row V c b (qrow t i') f := by
  refine (Reg1Pay.pay1_at (iblk1 V c 0 t) (iblk1 V c 1 t) (iblk1 V c 2 t) (iblk1 V c 3 t) b i' f).trans ?_
  exact attnK_congr (funext fun f' => blk_q V c t b i' f') (funext fun j => funext fun f' => blk_k V c t b j f')
    (funext fun j => funext fun f' => blk_v V c t b j f')
    (funext fun j => congrArg (fun x => IntOp.cmpi .ne x 0#32) (blk_m V c t b i' j)) f

/-! ## The two output arrays as functions of the arrays the kernel finds -/

/-- The context array: at every index the attention row of its batch and query, at its column. -/
def Gctx (c : Dev nD) : S4x2048x512.Idx → EReal :=
  fun idx => row V c ⟨(idx 0).val, (idx 0).isLt⟩ ⟨(idx 1).val, (idx 1).isLt⟩ ⟨(idx 2).val, (idx 2).isLt⟩

/-- The projected array: at every index that row against the index's column of the weight matrix. -/
def Gx (c : Dev nD) : S4x2048x1024.Idx → EReal :=
  fun idx => ∑ f : Fin 512, row V c ⟨(idx 0).val, (idx 0).isLt⟩ ⟨(idx 1).val, (idx 1).isLt⟩ f
    * wf V c (ix2 f ⟨(idx 2).val, (idx 2).isLt⟩)

private theorem Gctx_at (c : Dev nD) (b : Fin 4) (i : Fin 2048) (f : Fin 512) : Gctx V c (ix3 b i f) = row V c b i f := rfl

private theorem Gx_at (c : Dev nD) (b : Fin 4) (i : Fin 2048) (d : Fin 1024) :
    Gx V c (ix3 b i d) = ∑ f : Fin 512, row V c b i f * wf V c (ix2 f d) := rfl

/-! ## What each point writes back -/

/-- Entry (b, i', f) of the context block at point t sits in the array at (b, t * 256 + i', f). -/
private theorem emb_ctx (t : Fin cfg1.N) (b : Fin 4) (i' : Fin 256) (f : Fin 512) :
    (((cfg1.win 6).blk t).view.emb (ix3 b i' f) : S4x2048x512.Idx) = ix3 b (qrow t i') f := by
  obtain ⟨-, -, -, -, -, -, ⟨e0, e1, e2⟩⟩ := idx_facts t
  funext a; apply Fin.ext
  match a with
  | ⟨0, _⟩ => show win1_6.index t (0 : Fin 3) * 4 + 1 * b.val = b.val; omega
  | ⟨1, _⟩ => show win1_6.index t (1 : Fin 3) * 256 + 1 * i'.val = t.val * 256 + i'.val; omega
  | ⟨2, _⟩ => show win1_6.index t (2 : Fin 3) * 512 + 1 * f.val = f.val; omega

/-- Entry (b, i', d) of the projected block at point t sits in the array at (b, t * 256 + i', d). -/
private theorem emb_x (t : Fin cfg1.N) (b : Fin 4) (i' : Fin 256) (d : Fin 1024) :
    (((cfg1.win 5).blk t).view.emb (ix3 b i' d) : S4x2048x1024.Idx) = ix3 b (qrow t i') d := by
  obtain ⟨-, -, -, -, -, ⟨e0, e1, e2⟩, -⟩ := idx_facts t
  funext a; apply Fin.ext
  match a with
  | ⟨0, _⟩ => show win1_5.index t (0 : Fin 3) * 4 + 1 * b.val = b.val; omega
  | ⟨1, _⟩ => show win1_5.index t (1 : Fin 3) * 256 + 1 * i'.val = t.val * 256 + i'.val; omega
  | ⟨2, _⟩ => show win1_5.index t (2 : Fin 3) * 1024 + 1 * d.val = d.val; omega

/-- What point t writes back to the context array is block t of `Gctx`. -/
private theorem flushed_ctx (c : Dev nD) (t : Fin cfg1.N) :
    (dat1 V c).flushed 6 t = ((cfg1.win 6).blk t).view.read (Elt Ideal) (Gctx V c) := by
  show (cfg1.win 6).cut (grid1.coords t) ((dat1 V c).after 6 t) = _
  rw [after1_6]
  unfold out1_6
  rw [View.canon_unit_zero hz3]
  simp only [View.ld_unit_zero (S := S4x256x512) hz3, View.ld_unit_zero (S := S4x2048x512) hz3,
    View.ld_unit_zero (S := S4x256x2048) hz3]
  refine funext fun (j : S4x256x512.Idx) => ?_
  obtain ⟨b, i', f, rfl⟩ : ∃ (b : Fin 4) (i' : Fin 256) (f : Fin 512), j = ix3 b i' f := ⟨j 0, j 1, j 2, eq_ix3 j⟩
  show k1_pay1 (F := Ideal) (iblk1 V c 0 t) (iblk1 V c 1 t) (iblk1 V c 2 t) (iblk1 V c 3 t) (ix3 b i' f)
    = Gctx V c (((cfg1.win 6).blk t).view.emb (ix3 b i' f))
  rw [emb_ctx t b i' f, Gctx_at]
  exact pay1_point V c t b i' f

/-- What point t writes back to the projected array is block t of `Gx`. -/
private theorem flushed_x (c : Dev nD) (t : Fin cfg1.N) :
    (dat1 V c).flushed 5 t = ((cfg1.win 5).blk t).view.read (Elt Ideal) (Gx V c) := by
  show (cfg1.win 5).cut (grid1.coords t) ((dat1 V c).after 5 t) = _
  rw [after1_5]
  unfold out1_5
  rw [View.canon_unit_zero hz3]
  simp only [View.ld_unit_zero (S := S4x256x512) hz3, View.ld_unit_zero (S := S4x2048x512) hz3,
    View.ld_unit_zero (S := S4x256x2048) hz3, View.ld_unit_zero (S := S512x1024) hz2]
  refine funext fun (j : S4x256x1024.Idx) => ?_
  obtain ⟨b, i', d, rfl⟩ : ∃ (b : Fin 4) (i' : Fin 256) (d : Fin 1024), j = ix3 b i' d := ⟨j 0, j 1, j 2, eq_ix3 j⟩
  show k1_pay2 (F := Ideal) (iblk1 V c 0 t) (iblk1 V c 1 t) (iblk1 V c 2 t) (iblk1 V c 3 t) (iblk1 V c 4 t) (ix3 b i' d)
    = Gx V c (((cfg1.win 5).blk t).view.emb (ix3 b i' d))
  rw [emb_x t b i' d, Gx_at]
  refine (Reg1PayX.pay2_at (iblk1 V c 0 t) (iblk1 V c 1 t) (iblk1 V c 2 t) (iblk1 V c 3 t) (iblk1 V c 4 t) b i' d).trans ?_
  refine Finset.sum_congr rfl fun f _ => ?_
  exact congrArg₂ (· * ·) (pay1_point V c t b i' f) (blk_w V c t f d)

/-! ## Every query row lies in one block -/

/-- An index of the context array is in point t's block iff each coordinate is in the block's range on its axis. -/
private theorem mem_blk_ctx (t : Fin cfg1.N) (i : S4x2048x512.Idx) :
    i ∈ ((cfg1.win 6).blk t).view.set ↔ ∀ a : Fin 3, win1_6.index t a * S4x256x512.size a ≤ (i a).val
      ∧ (i a).val < win1_6.index t a * S4x256x512.size a + S4x256x512.size a := by
  show i ∈ ((View.whole main_v16_1).slice (win1_6.rect t)).set ↔ _
  rw [View.set_slice_whole, Rect.mem_set_unit]
  exact Iff.rfl

/-- The same for the projected array. -/
private theorem mem_blk_x (t : Fin cfg1.N) (i : S4x2048x1024.Idx) :
    i ∈ ((cfg1.win 5).blk t).view.set ↔ ∀ a : Fin 3, win1_5.index t a * S4x256x1024.size a ≤ (i a).val
      ∧ (i a).val < win1_5.index t a * S4x256x1024.size a + S4x256x1024.size a := by
  show i ∈ ((View.whole main_v16_0).slice (win1_5.rect t)).set ↔ _
  rw [View.set_slice_whole, Rect.mem_set_unit]
  exact Iff.rfl

/-- Query row r lies in block r / 256. -/
private theorem point_of_row (r : Nat) (hr : r < 2048) : ∃ t : Fin cfg1.N, t.val = r / 256 :=
  ⟨⟨r / 256, by rw [show cfg1.N = 8 from N_1]; omega⟩, rfl⟩

/-- Every index of the context array is in some point's block. -/
private theorem cover_ctx (i : S4x2048x512.Idx) :
    ∃ t : Fin cfg1.N, (cfg1.win 6).flush t = true ∧ i ∈ ((cfg1.win 6).blk t).view.set := by
  have h0 : (i 0).val < 4 := (i 0).isLt
  have h1 : (i 1).val < 2048 := (i 1).isLt
  have h2 : (i 2).val < 512 := (i 2).isLt
  obtain ⟨t, ht⟩ := point_of_row (i 1).val h1
  obtain ⟨-, -, -, -, -, -, ⟨e0, e1, e2⟩⟩ := idx_facts t
  refine ⟨t, flush1_6 t, ?_⟩
  rw [mem_blk_ctx]
  intro a
  match a with
  | ⟨0, _⟩ => show win1_6.index t (0 : Fin 3) * 4 ≤ (i 0).val ∧ (i 0).val < win1_6.index t (0 : Fin 3) * 4 + 4; omega
  | ⟨1, _⟩ => show win1_6.index t (1 : Fin 3) * 256 ≤ (i 1).val ∧ (i 1).val < win1_6.index t (1 : Fin 3) * 256 + 256; omega
  | ⟨2, _⟩ => show win1_6.index t (2 : Fin 3) * 512 ≤ (i 2).val ∧ (i 2).val < win1_6.index t (2 : Fin 3) * 512 + 512; omega

/-- Every index of the projected array is in some point's block. -/
private theorem cover_x (i : S4x2048x1024.Idx) :
    ∃ t : Fin cfg1.N, (cfg1.win 5).flush t = true ∧ i ∈ ((cfg1.win 5).blk t).view.set := by
  have h0 : (i 0).val < 4 := (i 0).isLt
  have h1 : (i 1).val < 2048 := (i 1).isLt
  have h2 : (i 2).val < 1024 := (i 2).isLt
  obtain ⟨t, ht⟩ := point_of_row (i 1).val h1
  obtain ⟨-, -, -, -, -, ⟨e0, e1, e2⟩, -⟩ := idx_facts t
  refine ⟨t, flush1_5 t, ?_⟩
  rw [mem_blk_x]
  intro a
  match a with
  | ⟨0, _⟩ => show win1_5.index t (0 : Fin 3) * 4 ≤ (i 0).val ∧ (i 0).val < win1_5.index t (0 : Fin 3) * 4 + 4; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

/-! ## The two arrays after the walk -/

/-- The context array at (b, i, f). -/
theorem arr_ctx (c : Dev nD) (b : Fin 4) (i : Fin 2048) (f : Fin 512) :
    ((dat1 V c).arrAt 6 cfg1.N : S4x2048x512.Idx → EReal) (ix3 b i f) = row V c b i f :=
  (congrFun ((dat1 V c).arrAt_eq_of_cover 6 (Gctx V c) (fun t _ => flushed_ctx V c t) cover_ctx) (ix3 b i f)).trans
    (Gctx_at V c b i f)

/-- The projected array at (b, i, d). -/
theorem arr_x (c : Dev nD) (b : Fin 4) (i : Fin 2048) (d : Fin 1024) :
    ((dat1 V c).arrAt 5 cfg1.N : S4x2048x1024.Idx → EReal) (ix3 b i d) = ∑ f : Fin 512, row V c b i f * wf V c (ix2 f d) :=
  (congrFun ((dat1 V c).arrAt_eq_of_cover 5 (Gx V c) (fun t _ => flushed_x V c t) cover_x) (ix3 b i d)).trans
    (Gx_at V c b i d)

end Cert.KernelIdeal.Reg1

end
-- ==== Proof.Glue.lean ====
/-
  The kernel program's two results as functions of its arguments.

  Between the arguments and the two kernels stand only re-layouts: each weight matrix is transposed, the three inputs
  [4, 2048, 1024] are read as [8192, 1024] (row b * 2048 + l is (b, l)), the three projected arrays [8192, 512] are read
  back as [4, 2048, 512], and the mask bits are widened to words (a word is not zero exactly where the bit is set).
  Threading the two kernels' arrays through these gives: the context result at (b, i, f) is the attention row of the
  projected, scaled query (b, i) against the projected keys and values of batch b under the mask row (b, i); the other
  result at (b, i, d) is that row against row d of the output weight matrix.
-/
import proofs.«405517_j32014686224684_3_alg».proof.Proof.Gen.KernelIdeal.Frame
import proofs.«405517_j32014686224684_3_alg».proof.Proof.Spec
import proofs.«405517_j32014686224684_3_alg».proof.Proof.Reg0
import proofs.«405517_j32014686224684_3_alg».proof.Proof.Reg1
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Glue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The eight argument arrays on core c. -/
abbrev A0 (c : Dev nD) : FVec Ideal S4x2048x1024 .f32 := m ((c : Thread nD τ).loc main_arg0)
abbrev A1 (c : Dev nD) : FVec Ideal S4x2048x1024 .f32 := m ((c : Thread nD τ).loc main_arg1)
abbrev A2 (c : Dev nD) : FVec Ideal S4x2048x1024 .f32 := m ((c : Thread nD τ).loc main_arg2)
abbrev A3 (c : Dev nD) : IVec S4x2048x2048 1 := m ((c : Thread nD τ).loc main_arg3)
abbrev A4 (c : Dev nD) : FVec Ideal S512x1024 .f32 := m ((c : Thread nD τ).loc main_arg4)
abbrev A5 (c : Dev nD) : FVec Ideal S512x1024 .f32 := m ((c : Thread nD τ).loc main_arg5)
abbrev A6 (c : Dev nD) : FVec Ideal S512x1024 .f32 := m ((c : Thread nD τ).loc main_arg6)
abbrev A7 (c : Dev nD) : FVec Ideal S1024x512 .f32 := m ((c : Thread nD τ).loc main_arg7)

/-- The kernel program's attention row of batch b and query i, at column f, from the arguments. -/
def krow (c : Dev nD) (b : Fin 4) (i : Fin 2048) (f : Fin 512) : EReal :=
  Spec.rowK (A0 m c) (A1 m c) (A2 m c) (A3 m c) (A4 m c) (A5 m c) (A6 m c) b i f

/-! ## Reading the re-layouts at an entry -/

/-- Row b * 2048 + i of an array of 8192 rows. -/
private def rowIdx (b : Fin 4) (i : Fin 2048) : Fin 8192 := ⟨b.val * 2048 + i.val, by omega⟩

/-- An [8192, n] array read as [4, 2048, n]: entry (b, i, f) is row b * 2048 + i, column f. -/
private theorem cast_rows_at {α : Type} {n : ℕ} (x : (⟨2, ![8192, n]⟩ : Shape).Idx → α)
    (h : (⟨2, ![8192, n]⟩ : Shape).ShapeCasts ⟨3, ![4, 2048, n]⟩) (b : Fin 4) (i : Fin 2048) (f : Fin n) :
    shapeCast ⟨3, ![4, 2048, n]⟩ x h (ix3 b i f) = x (ix2 (rowIdx b i) f) :=
  shapeCast_apply x h _ _ (by
    rw [Shape.rowMajor_val_three, Shape.rowMajor_val_two]
    rfl)

/-- A [4, 2048, n] array read as [8192, n]: row b * 2048 + i, column d is entry (b, i, d). -/
private theorem cast_flat_at {α : Type} {n : ℕ} (x : (⟨3, ![4, 2048, n]⟩ : Shape).Idx → α)
    (h : (⟨3, ![4, 2048, n]⟩ : Shape).ShapeCasts ⟨2, ![8192, n]⟩) (b : Fin 4) (i : Fin 2048) (d : Fin n) :
    shapeCast ⟨2, ![8192, n]⟩ x h (ix2 (rowIdx b i) d) = x (ix3 b i d) :=
  shapeCast_apply x h _ _ (by
    rw [Shape.rowMajor_val_three, Shape.rowMajor_val_two]
    rfl)

/-- A bit widened to a word is not zero exactly where the bit is set. -/
private theorem ne_zero_widen (x : BitVec 1) : IntOp.cmpi .ne (x.setWidth 32) 0#32 = x := by
  rcases BitVec.eq_zero_or_eq_one x with h | h <;> subst h <;> decide

/-- Two inner products of entrywise equal rows are equal. -/
private theorem dot_congr {n : ℕ} {x x' w w' : Fin n → EReal} (hx : ∀ d, x d = x' d) (hw : ∀ d, w d = w' d) :
    Spec.dot x w = Spec.dot x' w' := by
  rw [show x = x' from funext hx, show w = w' from funext hw]

/-- Two attention rows over entrywise equal queries, keys, values and mask bits are equal. -/
private theorem attnK_congr {qs qs' : Fin 512 → EReal} {kp kp' vp vp' : Fin 2048 → Fin 512 → EReal}
    {mk mk' : Fin 2048 → BitVec 1}
    (hq : ∀ f, qs f = qs' f) (hk : ∀ j f, kp j f = kp' j f) (hv : ∀ j f, vp j f = vp' j f) (hm : ∀ j, mk j = mk' j)
    (f : Fin 512) : Spec.attnK qs kp vp mk f = Spec.attnK qs' kp' vp' mk' f := by
  rw [show qs = qs' from funext hq, show kp = kp' from funext fun j => funext (hk j),
    show vp = vp' from funext fun j => funext (hv j), show mk = mk' from funext hm]

/-! ## The arrays the projection kernel finds, from the arguments -/

/-- The query rows: the first argument read as [8192, 1024]. -/
private theorem v1_q2 (c : Dev nD) :
    (V1 (F := Ideal) m ρ c main_v8 : S8192x1024.Idx → EReal)
      = shapeCast S8192x1024 (m ((c : Thread nD τ).loc main_arg0) : S4x2048x1024.Idx → EReal)
          shapeCasts_S4x2048x1024_S8192x1024 := by
  dsimp only [V1, W1, hostOps0]
  after_results
  rfl

/-- The key rows: the second argument read as [8192, 1024]. -/
private theorem v1_k2 (c : Dev nD) :
    (V1 (F := Ideal) m ρ c main_v9 : S8192x1024.Idx → EReal)
      = shapeCast S8192x1024 (m ((c : Thread nD τ).loc main_arg1) : S4x2048x1024.Idx → EReal)
          shapeCasts_S4x2048x1024_S8192x1024 := by
  dsimp only [V1, W1, hostOps0]
  after_results
  rfl

/-- The value rows: the third argument read as [8192, 1024]. -/
private theorem v1_v2 (c : Dev nD) :
    (V1 (F := Ideal) m ρ c main_v10 : S8192x1024.Idx → EReal)
      = shapeCast S8192x1024 (m ((c : Thread nD τ).loc main_arg2) : S4x2048x1024.Idx → EReal)
          shapeCasts_S4x2048x1024_S8192x1024 := by
  dsimp only [V1, W1, hostOps0]
  after_results
  rfl

/-- The query weight matrix, transposed. -/
private theorem v1_wq (c : Dev nD) :
    (V1 (F := Ideal) m ρ c main_v1 : FVec Ideal S1024x512 .bf16)
      = truncf (F := Ideal) .bf16 (transpose S1024x512 [1, 0] (m ((c : Thread nD τ).loc main_arg4) : FVec Ideal S512x1024 .f32)
          transposes_S512x1024_S1024x512_1_0) bitsLt_bf16_f32 := by
  dsimp only [V1, W1, hostOps0]
  after_results

/-- The key weight matrix, transposed. -/
private theorem v1_wk (c : Dev nD) :
    (V1 (F := Ideal) m ρ c main_v3 : FVec Ideal S1024x512 .bf16)
      = truncf (F := Ideal) .bf16 (transpose S1024x512 [1, 0] (m ((c : Thread nD τ).loc main_arg5) : FVec Ideal S512x1024 .f32)
          transposes_S512x1024_S1024x512_1_0) bitsLt_bf16_f32 := by
  dsimp only [V1, W1, hostOps0]
  after_results

/-- The value weight matrix, transposed. -/
private theorem v1_wv (c : Dev nD) :
    (V1 (F := Ideal) m ρ c main_v5 : FVec Ideal S1024x512 .bf16)
      = truncf (F := Ideal) .bf16 (transpose S1024x512 [1, 0] (m ((c : Thread nD τ).loc main_arg6) : FVec Ideal S512x1024 .f32)
          transposes_S512x1024_S1024x512_1_0) bitsLt_bf16_f32 := by
  dsimp only [V1, W1, hostOps0]
  after_results

/-- The output weight matrix, transposed. -/
private theorem v1_wf (c : Dev nD) :
    (V1 (F := Ideal) m ρ c main_v7 : FVec Ideal S512x1024 .bf16)
      = truncf (F := Ideal) .bf16 (transpose S512x1024 [1, 0] (m ((c : Thread nD τ).loc main_arg7) : FVec Ideal S1024x512 .f32)
          transposes_S1024x512_S512x1024_1_0) bitsLt_bf16_f32 := by
  dsimp only [V1, W1, hostOps0]
  after_results

/-- Row b * 2048 + i of the query rows is row (b, i) of the first argument. -/
private theorem q2_at (c : Dev nD) (b : Fin 4) (i : Fin 2048) (d : Fin 1024) :
    Reg0.q2 (V1 (F := Ideal) m ρ) c (ix2 (rowIdx b i) d) = A0 m c (ix3 b i d) := by
  show (V1 (F := Ideal) m ρ c main_v8 : S8192x1024.Idx → EReal) (ix2 (rowIdx b i) d) = _
  rw [v1_q2 m ρ c]
  exact cast_flat_at _ _ b i d

/-- Row b * 2048 + i of the key rows is row (b, i) of the second argument. -/
private theorem k2_at (c : Dev nD) (b : Fin 4) (i : Fin 2048) (d : Fin 1024) :
    Reg0.k2 (V1 (F := Ideal) m ρ) c (ix2 (rowIdx b i) d) = A1 m c (ix3 b i d) := by
  show (V1 (F := Ideal) m ρ c main_v9 : S8192x1024.Idx → EReal) (ix2 (rowIdx b i) d) = _
  rw [v1_k2 m ρ c]
  exact cast_flat_at _ _ b i d

/-- Row b * 2048 + i of the value rows is row (b, i) of the third argument. -/
private theorem v2_at (c : Dev nD) (b : Fin 4) (i : Fin 2048) (d : Fin 1024) :
    Reg0.v2 (V1 (F := Ideal) m ρ) c (ix2 (rowIdx b i) d) = A2 m c (ix3 b i d) := by
  show (V1 (F := Ideal) m ρ c main_v10 : S8192x1024.Idx → EReal) (ix2 (rowIdx b i) d) = _
  rw [v1_v2 m ρ c]
  exact cast_flat_at _ _ b i d

/-- Column f of the transposed query weight matrix is row f of the fifth argument. -/
private theorem wq_at (c : Dev nD) (d : Fin 1024) (f : Fin 512) :
    Reg0.wq (V1 (F := Ideal) m ρ) c (ix2 d f) = A4 m c (ix2 f d) := by
  show (V1 (F := Ideal) m ρ c main_v1 : FVec Ideal S1024x512 .bf16) (ix2 d f) = _
  rw [v1_wq m ρ c, truncf_apply]
  exact transpose_ix2_apply _ _ d f

/-- Column f of the transposed key weight matrix is row f of the sixth argument. -/
private theorem wk_at (c : Dev nD) (d : Fin 1024) (f : Fin 512) :
    Reg0.wk (V1 (F := Ideal) m ρ) c (ix2 d f) = A5 m c (ix2 f d) := by
  show (V1 (F := Ideal) m ρ c main_v3 : FVec Ideal S1024x512 .bf16) (ix2 d f) = _
  rw [v1_wk m ρ c, truncf_apply]
  exact transpose_ix2_apply _ _ d f

/-- Column f of the transposed value weight matrix is row f of the seventh argument. -/
private theorem wv_at (c : Dev nD) (d : Fin 1024) (f : Fin 512) :
    Reg0.wv (V1 (F := Ideal) m ρ) c (ix2 d f) = A6 m c (ix2 f d) := by
  show (V1 (F := Ideal) m ρ c main_v5 : FVec Ideal S1024x512 .bf16) (ix2 d f) = _
  rw [v1_wv m ρ c, truncf_apply]
  exact transpose_ix2_apply _ _ d f

/-! ## The arrays the attention kernel finds, from what the projection kernel leaves -/

/-- The scaled queries: the projection kernel's first output read as [4, 2048, 512]. -/
private theorem v3_qs (c : Dev nD) :
    (V3 (F := Ideal) m ρ c main_v12 : S4x2048x512.Idx → EReal)
      = shapeCast S4x2048x512 (W2 (F := Ideal) m ρ c (Proc.devRef .tc main_v11_0) : S8192x512.Idx → EReal)
          shapeCasts_S8192x512_S4x2048x512 := by
  dsimp only [V3, W3, hostOps1]
  after_results
  rfl

/-- The keys: the projection kernel's second output read as [4, 2048, 512]. -/
private theorem v3_kp (c : Dev nD) :
    (V3 (F := Ideal) m ρ c main_v13 : S4x2048x512.Idx → EReal)
      = shapeCast S4x2048x512 (W2 (F := Ideal) m ρ c (Proc.devRef .tc main_v11_1) : S8192x512.Idx → EReal)
          shapeCasts_S8192x512_S4x2048x512 := by
  dsimp only [V3, W3, hostOps1]
  after_results
  rfl

/-- The values: the projection kernel's third output read as [4, 2048, 512]. -/
private theorem v3_vp (c : Dev nD) :
    (V3 (F := Ideal) m ρ c main_v14 : S4x2048x512.Idx → EReal)
      = shapeCast S4x2048x512 (W2 (F := Ideal) m ρ c (Proc.devRef .tc main_v11_2) : S8192x512.Idx → EReal)
          shapeCasts_S8192x512_S4x2048x512 := by
  dsimp only [V3, W3, hostOps1]
  after_results
  rfl

/-- The mask words: the mask bits, each widened to a word. -/
private theorem v3_mk (c : Dev nD) :
    (V3 (F := Ideal) m ρ c main_v15 : IVec S4x2048x2048 32)
      = extui 32 (W2 (F := Ideal) m ρ c (Proc.devRef .tc main_arg3) : IVec S4x2048x2048 1) natLt_1_32 := by
  dsimp only [V3, W3, hostOps1]
  after_results

/-- Nothing before the attention kernel writes the mask bits. -/
private theorem w2_arg3 (c : Dev nD) :
    W2 (F := Ideal) m ρ c (Proc.devRef .tc main_arg3) = m ((c : Thread nD τ).loc main_arg3) :=
  calc W2 (F := Ideal) m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Nothing between the two kernels writes the transposed output weight matrix. -/
private theorem v3_wf (c : Dev nD) :
    (V3 (F := Ideal) m ρ c main_v7 : S512x1024.Idx → EReal) = (V1 (F := Ideal) m ρ c main_v7 : S512x1024.Idx → EReal) :=
  calc W3 (F := Ideal) m ρ c (Proc.devRef .tc main_v7)
    _ = W2 m ρ c (Proc.devRef .tc main_v7) := StableHlo.after_of_forall_not_mem (b := Proc.devRef .tc main_v7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v7) := W2_of_ne m ρ c main_v7 (by decide)

/-- The projection kernel's three outputs when it is done. -/
private theorem w2_q (c : Dev nD) :
    (W2 (F := Ideal) m ρ c (Proc.devRef .tc main_v11_0) : S8192x512.Idx → EReal)
      = ((dat0 (V1 (F := Ideal) m ρ) c).arrAt 6 cfg0.N : S8192x512.Idx → EReal) := W2_arr m ρ c 6
private theorem w2_k (c : Dev nD) :
    (W2 (F := Ideal) m ρ c (Proc.devRef .tc main_v11_1) : S8192x512.Idx → EReal)
      = ((dat0 (V1 (F := Ideal) m ρ) c).arrAt 7 cfg0.N : S8192x512.Idx → EReal) := W2_arr m ρ c 7
private theorem w2_v (c : Dev nD) :
    (W2 (F := Ideal) m ρ c (Proc.devRef .tc main_v11_2) : S8192x512.Idx → EReal)
      = ((dat0 (V1 (F := Ideal) m ρ) c).arrAt 8 cfg0.N : S8192x512.Idx → EReal) := W2_arr m ρ c 8

/-- The scaled query the attention kernel finds at (b, i, f): the projection of row (b, i) of the first argument on row f
    of the fifth, times one eighth. -/
private theorem qs_at (c : Dev nD) (b : Fin 4) (i : Fin 2048) (f : Fin 512) :
    Reg1.qs3 (V3 (F := Ideal) m ρ) c (ix3 b i f) = Spec.proj (A0 m c) (A4 m c) b i f * Spec.c8 := by
  show (V3 (F := Ideal) m ρ c main_v12 : S4x2048x512.Idx → EReal) (ix3 b i f) = _
  rw [v3_qs m ρ c, cast_rows_at, w2_q m ρ c, Reg0.arr6 (V1 m ρ) c (rowIdx b i) f]
  unfold Spec.proj
  rw [dot_congr (fun d => q2_at m ρ c b i d) (fun d => wq_at m ρ c d f)]

/-- The key the attention kernel finds at (b, j, f). -/
private theorem kp_at (c : Dev nD) (b : Fin 4) (j : Fin 2048) (f : Fin 512) :
    Reg1.kp3 (V3 (F := Ideal) m ρ) c (ix3 b j f) = Spec.proj (A1 m c) (A5 m c) b j f := by
  show (V3 (F := Ideal) m ρ c main_v13 : S4x2048x512.Idx → EReal) (ix3 b j f) = _
  rw [v3_kp m ρ c, cast_rows_at, w2_k m ρ c, Reg0.arr7 (V1 m ρ) c (rowIdx b j) f]
  unfold Spec.proj
  rw [dot_congr (fun d => k2_at m ρ c b j d) (fun d => wk_at m ρ c d f)]

/-- The value the attention kernel finds at (b, j, f). -/
private theorem vp_at (c : Dev nD) (b : Fin 4) (j : Fin 2048) (f : Fin 512) :
    Reg1.vp3 (V3 (F := Ideal) m ρ) c (ix3 b j f) = Spec.proj (A2 m c) (A6 m c) b j f := by
  show (V3 (F := Ideal) m ρ c main_v14 : S4x2048x512.Idx → EReal) (ix3 b j f) = _
  rw [v3_vp m ρ c, cast_rows_at, w2_v m ρ c, Reg0.arr8 (V1 m ρ) c (rowIdx b j) f]
  unfold Spec.proj
  rw [dot_congr (fun d => v2_at m ρ c b j d) (fun d => wv_at m ρ c d f)]

/-- The mask word the attention kernel finds at (b, i, j) is not zero exactly where the mask bit is set. -/
private theorem mk_at (c : Dev nD) (b : Fin 4) (i j : Fin 2048) :
    IntOp.cmpi .ne (Reg1.mk3 (V3 (F := Ideal) m ρ) c (ix3 b i j)) 0#32 = A3 m c (ix3 b i j) := by
  show IntOp.cmpi .ne ((V3 (F := Ideal) m ρ c main_v15 : IVec S4x2048x2048 32) (ix3 b i j)) 0#32 = _
  rw [v3_mk m ρ c, extui_apply, w2_arg3 m ρ c]
  exact ne_zero_widen _

/-- Row f of the transposed output weight matrix the attention kernel finds is column f of the eighth argument. -/
private theorem wf_at (c : Dev nD) (f : Fin 512) (d : Fin 1024) :
    Reg1.wf (V3 (F := Ideal) m ρ) c (ix2 f d) = A7 m c (ix2 d f) := by
  show (V3 (F := Ideal) m ρ c main_v7 : S512x1024.Idx → EReal) (ix2 f d) = _
  rw [v3_wf m ρ c, v1_wf m ρ c, truncf_apply]
  exact transpose_ix2_apply _ _ f d

/-- The attention row over the arrays the attention kernel finds is the row from the arguments. -/
private theorem row_eq (c : Dev nD) (b : Fin 4) (i : Fin 2048) (f : Fin 512) :
    Reg1.row (V3 (F := Ideal) m ρ) c b i f = krow m c b i f := by
  unfold Reg1.row krow Spec.rowK
  exact attnK_congr (fun f' => qs_at m ρ c b i f') (fun j f' => kp_at m ρ c b j f') (fun j f' => vp_at m ρ c b j f')
    (fun j => mk_at m ρ c b i j) f

/-- The context result at (b, i, f). -/
theorem kernel_ctx (c : Dev nD) (b : Fin 4) (i : Fin 2048) (f : Fin 512) :
    (W4 (F := Ideal) m ρ c (Proc.devRef .tc main_v16_1) : S4x2048x512.Idx → EReal) (ix3 b i f) = krow m c b i f := by
  have e : (W4 (F := Ideal) m ρ c (Proc.devRef .tc main_v16_1) : S4x2048x512.Idx → EReal)
      = ((dat1 (V3 (F := Ideal) m ρ) c).arrAt 6 cfg1.N : S4x2048x512.Idx → EReal) := W4_arr m ρ c 6
  rw [e, Reg1.arr_ctx (V3 m ρ) c b i f]
  exact row_eq m ρ c b i f

/-- The projected result at (b, i, d). -/
theorem kernel_x (c : Dev nD) (b : Fin 4) (i : Fin 2048) (d : Fin 1024) :
    (W4 (F := Ideal) m ρ c (Proc.devRef .tc main_v16_0) : S4x2048x1024.Idx → EReal) (ix3 b i d)
      = ∑ f : Fin 512, krow m c b i f * A7 m c (ix2 d f) := by
  have e : (W4 (F := Ideal) m ρ c (Proc.devRef .tc main_v16_0) : S4x2048x1024.Idx → EReal)
      = ((dat1 (V3 (F := Ideal) m ρ) c).arrAt 5 cfg1.N : S4x2048x1024.Idx → EReal) := W4_arr m ρ c 5
  rw [e, Reg1.arr_x (V3 m ρ) c b i d]
  show (∑ f : Fin 512, Reg1.row (V3 (F := Ideal) m ρ) c b i f * Reg1.wf (V3 (F := Ideal) m ρ) c (ix2 f d) : EReal) = _
  refine Finset.sum_congr rfl fun f _ => ?_
  rw [row_eq m ρ c b i f, wf_at m ρ c f d]

end Cert.KernelIdeal.Glue

end
-- ==== Proof.RefVal.lean ====
/-
  The reference program's two results, entry by entry.

  The reference projects q, k and v with the three weight matrices, takes every query's inner products with the keys of
  its batch, divides them by eight, puts -infinity where the mask is set, subtracts each row's maximum, exponentiates,
  divides by the row's sum, and takes the weighted sums of the projected values: its second result at (b, i, f) is the
  attention row of batch b and query i in the arrangement that divides every score and every weight. Its first result
  at (b, i, d) is that row against row d of the output weight matrix.
-/
import proofs.«405517_j32014686224684_3_alg».proof.Proof.Gen.ReferenceIdeal.Read
import proofs.«405517_j32014686224684_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefVal

open Idealize.ShloMosaic Idealize.ShloMosaic.TcCoe Idealize.ShloMosaic.ValueIdx
open Cert.ReferenceIdeal Cert.ReferenceIdeal.Read

variable (x0 x1 x2 : FVec Ideal S4x2048x1024 .f32) (x3 : IVec S4x2048x2048 1) (x4 x5 x6 : FVec Ideal S512x1024 .f32)
  (x7 : FVec Ideal S1024x512 .f32)

/-! ## The index functions of the stages at explicit coordinates -/

private theorem lidx_q (b : Fin 4) (l : Fin 2048) (f : Fin 512) (k : Fin 1024) :
    lidx_main_v0 (ix3 b l f) k = ix3 b l k := funext fun a => Fin.ext (by match a with | ⟨0, _⟩ => rfl | ⟨1, _⟩ => rfl | ⟨2, _⟩ => rfl)
private theorem ridx_q (b : Fin 4) (l : Fin 2048) (f : Fin 512) (k : Fin 1024) :
    ridx_main_v0 (ix3 b l f) k = ix2 f k := funext fun a => Fin.ext (by match a with | ⟨0, _⟩ => rfl | ⟨1, _⟩ => rfl)
private theorem lidx_k (b : Fin 4) (l : Fin 2048) (f : Fin 512) (k : Fin 1024) :
    lidx_main_v1 (ix3 b l f) k = ix3 b l k := funext fun a => Fin.ext (by match a with | ⟨0, _⟩ => rfl | ⟨1, _⟩ => rfl | ⟨2, _⟩ => rfl)
private theorem ridx_k (b : Fin 4) (l : Fin 2048) (f : Fin 512) (k : Fin 1024) :
    ridx_main_v1 (ix3 b l f) k = ix2 f k := funext fun a => Fin.ext (by match a with | ⟨0, _⟩ => rfl | ⟨1, _⟩ => rfl)
private theorem lidx_v (b : Fin 4) (l : Fin 2048) (f : Fin 512) (k : Fin 1024) :
    lidx_main_v2 (ix3 b l f) k = ix3 b l k := funext fun a => Fin.ext (by match a with | ⟨0, _⟩ => rfl | ⟨1, _⟩ => rfl | ⟨2, _⟩ => rfl)
private theorem ridx_v (b : Fin 4) (l : Fin 2048) (f : Fin 512) (k : Fin 1024) :
    ridx_main_v2 (ix3 b l f) k = ix2 f k := funext fun a => Fin.ext (by match a with | ⟨0, _⟩ => rfl | ⟨1, _⟩ => rfl)
private theorem lidx_score (b : Fin 4) (i j : Fin 2048) (k : Fin 512) :
    lidx_main_v3 (ix3 b i j) k = ix3 b i k := funext fun a => Fin.ext (by match a with | ⟨0, _⟩ => rfl | ⟨1, _⟩ => rfl | ⟨2, _⟩ => rfl)
private theorem ridx_score (b : Fin 4) (i j : Fin 2048) (k : Fin 512) :
    ridx_main_v3 (ix3 b i j) k = ix3 b j k := funext fun a => Fin.ext (by match a with | ⟨0, _⟩ => rfl | ⟨1, _⟩ => rfl | ⟨2, _⟩ => rfl)
private theorem idx_max1 (b : Fin 4) (i : Fin 2048) (z : Fin 1) :
    idx_main_v10 (ix3 b i z) = ix2 b i := funext fun a => Fin.ext (by match a with | ⟨0, _⟩ => rfl | ⟨1, _⟩ => rfl)
private theorem idx_max (b : Fin 4) (i j : Fin 2048) :
    idx_main_v11 (ix3 b i j) = ix3 b i (0 : Fin 1) := funext fun a => Fin.ext (by match a with | ⟨0, _⟩ => rfl | ⟨1, _⟩ => rfl | ⟨2, _⟩ => rfl)
private theorem idx_sum (b : Fin 4) (i k : Fin 2048) :
    idx_main_v14 (ix2 b i) k = ix3 b i k := funext fun a => Fin.ext (by match a with | ⟨0, _⟩ => rfl | ⟨1, _⟩ => rfl | ⟨2, _⟩ => rfl)
private theorem idx_den1 (b : Fin 4) (i : Fin 2048) (z : Fin 1) :
    idx_main_v15 (ix3 b i z) = ix2 b i := funext fun a => Fin.ext (by match a with | ⟨0, _⟩ => rfl | ⟨1, _⟩ => rfl)
private theorem idx_den (b : Fin 4) (i j : Fin 2048) :
    idx_main_v16 (ix3 b i j) = ix3 b i (0 : Fin 1) := funext fun a => Fin.ext (by match a with | ⟨0, _⟩ => rfl | ⟨1, _⟩ => rfl | ⟨2, _⟩ => rfl)
private theorem lidx_ctx (b : Fin 4) (i : Fin 2048) (f : Fin 512) (k : Fin 2048) :
    lidx_main_v18 (ix3 b i f) k = ix3 b i k := funext fun a => Fin.ext (by match a with | ⟨0, _⟩ => rfl | ⟨1, _⟩ => rfl | ⟨2, _⟩ => rfl)
private theorem ridx_ctx (b : Fin 4) (i : Fin 2048) (f : Fin 512) (k : Fin 2048) :
    ridx_main_v18 (ix3 b i f) k = ix3 b k f := funext fun a => Fin.ext (by match a with | ⟨0, _⟩ => rfl | ⟨1, _⟩ => rfl | ⟨2, _⟩ => rfl)
private theorem lidx_out (b : Fin 4) (i : Fin 2048) (d : Fin 1024) (k : Fin 512) :
    lidx_main_v19 (ix3 b i d) k = ix3 b i k := funext fun a => Fin.ext (by match a with | ⟨0, _⟩ => rfl | ⟨1, _⟩ => rfl | ⟨2, _⟩ => rfl)
private theorem ridx_out (b : Fin 4) (i : Fin 2048) (d : Fin 1024) (k : Fin 512) :
    ridx_main_v19 (ix3 b i d) k = ix2 d k := funext fun a => Fin.ext (by match a with | ⟨0, _⟩ => rfl | ⟨1, _⟩ => rfl)

/-! ## The three projections -/

/-- The projected query at (b, l, f) is row (b, l) of q against row f of its weight matrix. -/
private theorem v0_at (b : Fin 4) (l : Fin 2048) (f : Fin 512) :
    val_main_v0 (F := Ideal) x0 x4 (ix3 b l f) = Spec.proj x0 x4 b l f := by
  rw [val_main_v0_apply]
  unfold Spec.proj Spec.dot
  refine Finset.sum_congr rfl fun k _ => ?_
  rw [lidx_q, ridx_q]

/-- The projected key at (b, l, f). -/
private theorem v1_at (b : Fin 4) (l : Fin 2048) (f : Fin 512) :
    val_main_v1 (F := Ideal) x1 x5 (ix3 b l f) = Spec.proj x1 x5 b l f := by
  rw [val_main_v1_apply]
  unfold Spec.proj Spec.dot
  refine Finset.sum_congr rfl fun k _ => ?_
  rw [lidx_k, ridx_k]

/-- The projected value at (b, l, f). -/
private theorem v2_at (b : Fin 4) (l : Fin 2048) (f : Fin 512) :
    val_main_v2 (F := Ideal) x2 x6 (ix3 b l f) = Spec.proj x2 x6 b l f := by
  rw [val_main_v2_apply]
  unfold Spec.proj Spec.dot
  refine Finset.sum_congr rfl fun k _ => ?_
  rw [lidx_v, ridx_v]

/-! ## The scores -/

/-- The inner product of projected query row (b, i) with projected key row (b, j). -/
private theorem v3_at (b : Fin 4) (i j : Fin 2048) :
    val_main_v3 (F := Ideal) x0 x1 x4 x5 (ix3 b i j)
      = ∑ f : Fin 512, Spec.proj x0 x4 b i f * Spec.proj x1 x5 b j f := by
  rw [val_main_v3_apply]
  refine Finset.sum_congr rfl fun k _ => ?_
  rw [lidx_score, ridx_score, v0_at, v1_at]

/-- The divisor is eight everywhere. -/
private theorem v4_at (j : S4x2048x2048.Idx) : val_main_v4 (F := Ideal) j = Spec.d8 := by
  rw [val_main_v4_apply, val_main_cst_apply, Ideal.ofBits_def, Spec.ofBits_eight]

/-- The inner product divided by eight. -/
private theorem v5_at (b : Fin 4) (i j : Fin 2048) :
    val_main_v5 (F := Ideal) x0 x1 x4 x5 (ix3 b i j)
      = Ideal.div (∑ f : Fin 512, Spec.proj x0 x4 b i f * Spec.proj x1 x5 b j f) Spec.d8 := by
  rw [val_main_v5_apply, Ideal.hostDivf_def, v3_at, v4_at]

/-- The fill value of the mask is -infinity everywhere. -/
private theorem fill_at (j : S4x2048x2048.Idx) : val_main_call0_v1 (F := Ideal) j = (⊥ : EReal) := by
  rw [val_main_call0_v1_apply, val_main_call0_v0_apply, val_main_cst_0_apply, Ideal.ofBits_def, Spec.ofBits_neg_inf]

/-- The masked score of key j for query (b, i). -/
private theorem v6_at (b : Fin 4) (i j : Fin 2048) :
    val_main_v6 (F := Ideal) x0 x1 x3 x4 x5 (ix3 b i j)
      = Spec.sR (Spec.proj x0 x4 b i) (Spec.proj x1 x5 b) (fun j' : Fin 2048 => x3 (ix3 b i j')) j := by
  rw [val_main_v6_apply, fill_at, v5_at]
  rfl

/-! ## The row maximum -/

/-- A maximum taken over the last axis of a three-axis array, at (b, i), is the maximum over j of the entries (b, i, j). -/
private theorem reduce_max_at (y : FVec Ideal S4x2048x2048 .f32) (init : FVec Ideal S_ .f32) (b : Fin 4) (i : Fin 2048) :
    Host.reduce FloatOps.maximumf y init Gen.reducesTo_S4x2048x2048_S4x2048_d2 Gen.h_S_ (ix2 b i)
      = (Finset.univ : Finset (Fin 2048)).fold max (init (Shape.Idx.first Gen.h_S_)) (fun j => y (ix3 b i j)) := by
  rw [Host.reduce_eq_fold_single FloatOps.maximumf y init Gen.reducesTo_S4x2048x2048_S4x2048_d2 (by decide) Gen.h_S_ (ix2 b i)]
  refine congrArg (fun g => (Finset.univ : Finset (Fin 2048)).fold max (init (Shape.Idx.first Gen.h_S_)) g) (funext fun k => ?_)
  exact congrArg y (funext fun a => Fin.ext (by match a with | ⟨0, _⟩ => rfl | ⟨1, _⟩ => rfl | ⟨2, _⟩ => rfl))

/-- The largest masked score of the row, from -infinity. -/
private theorem v7_at (b : Fin 4) (i : Fin 2048) :
    val_main_v7 (F := Ideal) x0 x1 x3 x4 x5 (ix2 b i)
      = (Finset.univ : Finset (Fin 2048)).fold max ⊥
          (Spec.sR (Spec.proj x0 x4 b i) (Spec.proj x1 x5 b) (fun j' : Fin 2048 => x3 (ix3 b i j'))) := by
  unfold val_main_v7
  rw [reduce_max_at, val_main_cst_1_apply, Ideal.ofBits_def, Spec.ofBits_neg_inf]
  exact congrArg (fun g => (Finset.univ : Finset (Fin 2048)).fold max (⊥ : EReal) g) (funext fun j => v6_at x0 x1 x3 x4 x5 b i j)

/-- The other operand of the last maximum is -infinity everywhere. -/
private theorem v8_at (j : S4x2048.Idx) : val_main_v8 (F := Ideal) j = (⊥ : EReal) := by
  rw [val_main_v8_apply, val_main_cst_2_apply, Ideal.ofBits_def, Spec.ofBits_neg_inf]

/-- The row's maximum as the reference spells it. -/
private theorem v9_at (b : Fin 4) (i : Fin 2048) :
    val_main_v9 (F := Ideal) x0 x1 x3 x4 x5 (ix2 b i)
      = Spec.mxR (Spec.proj x0 x4 b i) (Spec.proj x1 x5 b) (fun j' : Fin 2048 => x3 (ix3 b i j')) := by
  rw [val_main_v9_apply, Ideal.maximumf_def, v8_at, v7_at]
  rfl

/-- The row's maximum, copied along the keys. -/
private theorem v11_at (b : Fin 4) (i j : Fin 2048) :
    val_main_v11 (F := Ideal) x0 x1 x3 x4 x5 (ix3 b i j)
      = Spec.mxR (Spec.proj x0 x4 b i) (Spec.proj x1 x5 b) (fun j' : Fin 2048 => x3 (ix3 b i j')) := by
  rw [val_main_v11_apply, idx_max, val_main_v10_apply, idx_max1, v9_at]

/-! ## The weights and their sum -/

/-- The weight of key j. -/
private theorem v13_at (b : Fin 4) (i j : Fin 2048) :
    val_main_v13 (F := Ideal) x0 x1 x3 x4 x5 (ix3 b i j)
      = Spec.pR (Spec.proj x0 x4 b i) (Spec.proj x1 x5 b) (fun j' : Fin 2048 => x3 (ix3 b i j')) j := by
  rw [val_main_v13_apply, Ideal.hostUnary_exp_def, val_main_v12_apply, Ideal.subf_def, v6_at, v11_at]
  rfl

/-- The sum of the row's weights, from zero. -/
private theorem v14_at (b : Fin 4) (i : Fin 2048) :
    val_main_v14 (F := Ideal) x0 x1 x3 x4 x5 (ix2 b i)
      = Spec.lR (Spec.proj x0 x4 b i) (Spec.proj x1 x5 b) (fun j' : Fin 2048 => x3 (ix3 b i j')) := by
  rw [val_main_v14_apply, val_main_cst_3_apply, Ideal.ofBits_def, Ideal.ofBits_zero_f32]
  unfold Spec.lR
  refine congrArg (fun s : EReal => 0 + s) (Finset.sum_congr rfl fun k _ => ?_)
  rw [idx_sum, v13_at]

/-- The sum of the row's weights, copied along the keys. -/
private theorem v16_at (b : Fin 4) (i j : Fin 2048) :
    val_main_v16 (F := Ideal) x0 x1 x3 x4 x5 (ix3 b i j)
      = Spec.lR (Spec.proj x0 x4 b i) (Spec.proj x1 x5 b) (fun j' : Fin 2048 => x3 (ix3 b i j')) := by
  rw [val_main_v16_apply, idx_den, val_main_v15_apply, idx_den1, v14_at]

/-- The normalised weight of key j. -/
private theorem v17_at (b : Fin 4) (i j : Fin 2048) :
    val_main_v17 (F := Ideal) x0 x1 x3 x4 x5 (ix3 b i j)
      = Ideal.div (Spec.pR (Spec.proj x0 x4 b i) (Spec.proj x1 x5 b) (fun j' : Fin 2048 => x3 (ix3 b i j')) j)
          (Spec.lR (Spec.proj x0 x4 b i) (Spec.proj x1 x5 b) (fun j' : Fin 2048 => x3 (ix3 b i j'))) := by
  rw [val_main_v17_apply, Ideal.hostDivf_def, v13_at, v16_at]

/-! ## The two results -/

/-- The context result at (b, i, f). -/
theorem ref_ctx (b : Fin 4) (i : Fin 2048) (f : Fin 512) :
    val_main_v18 (F := Ideal) x0 x1 x2 x3 x4 x5 x6 (ix3 b i f) = Spec.rowR x0 x1 x2 x3 x4 x5 x6 b i f := by
  rw [val_main_v18_apply]
  unfold Spec.rowR Spec.attnR
  refine Finset.sum_congr rfl fun k _ => ?_
  rw [lidx_ctx, ridx_ctx, v17_at, v2_at]

/-- The projected result at (b, i, d). -/
theorem ref_x (b : Fin 4) (i : Fin 2048) (d : Fin 1024) :
    val_main_v19 (F := Ideal) x0 x1 x2 x3 x4 x5 x6 x7 (ix3 b i d)
      = ∑ f : Fin 512, Spec.rowR x0 x1 x2 x3 x4 x5 x6 b i f * x7 (ix2 d f) := by
  rw [val_main_v19_apply]
  refine Finset.sum_congr rfl fun k _ => ?_
  rw [lidx_out, ridx_out, ref_ctx]

end Cert.ReferenceIdeal.RefVal

end
-- ==== Proof.lean ====
/-
  The certificate's claim: the attention kernel program and its reference compute the same two arrays over the reals.

  Both programs project q, k and v, take for every (batch, query) the attention row against the batch's keys and values
  under the query's mask row, and multiply the rows with the output weight matrix. They differ in where they divide: the
  kernel program scales the projected query by one eighth and divides each row once by its sum of weights; the reference
  divides every score by eight and every weight by the sum. The precondition makes every float argument real and gives
  every mask row a clear bit, so every projected number is real, every row's largest score is real and every row's sum
  of weights is a positive real: there the two arrangements agree (distributivity over finite sums of reals). A mask row
  set throughout is excluded: there the reference's softmax is 0/0.

  The three frames are the generated ones (the reference's is its run with the results dropped); the idealization's
  ledger is empty; the equivalence reads the kernel program's two result arrays off its run, the reference's off its
  run, and joins them entry by entry.
-/
import proofs.«405517_j32014686224684_3_alg».proof.Defs
import proofs.«405517_j32014686224684_3_alg».proof.Proof.Gen.Kernel
import proofs.«405517_j32014686224684_3_alg».proof.Proof.Gen.Kernel.Frame
import proofs.«405517_j32014686224684_3_alg».proof.Proof.Gen.KernelIdeal
import proofs.«405517_j32014686224684_3_alg».proof.Proof.Gen.KernelIdeal.Frame
import proofs.«405517_j32014686224684_3_alg».proof.Proof.Gen.ReferenceIdeal
import proofs.«405517_j32014686224684_3_alg».proof.Proof.Gen.ReferenceIdeal.Run
import proofs.«405517_j32014686224684_3_alg».proof.Proof.Gen.ReferenceIdeal.Read
import proofs.«405517_j32014686224684_3_alg».proof.Proof.Gen.Pre_finite_inputs
import proofs.«405517_j32014686224684_3_alg».proof.Proof.Spec
import proofs.«405517_j32014686224684_3_alg».proof.Proof.Math
import proofs.«405517_j32014686224684_3_alg».proof.Proof.PreDecode
import proofs.«405517_j32014686224684_3_alg».proof.Proof.RunK
import proofs.«405517_j32014686224684_3_alg».proof.Proof.Glue
import proofs.«405517_j32014686224684_3_alg».proof.Proof.RefVal
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two programs' results agree entry by entry under the precondition. -/
theorem algebraic : Cert.algebraic_KernelIdeal_ReferenceIdeal := by
  intro m ρ m' ρ' hpre hagree
  refine ⟨fun c => Cert.KernelIdeal.Gen.W4 (F := Ideal) m ρ c (Proc.devRef .tc Cert.KernelIdeal.main_v16_0),
    fun c => Cert.KernelIdeal.Gen.W4 (F := Ideal) m ρ c (Proc.devRef .tc Cert.KernelIdeal.main_v16_1),
    Cert.KernelIdeal.KRun.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  all_goals
    obtain ⟨h0, h1, h2, h4, h5, h6, hrow⟩ := Cert.PreDecode.decode _ _ _ _ _ _ _ _ (hpre c)
    obtain ⟨e0, e1, e2, e3, e4, e5, e6, e7⟩ := hagree c
  · rw [Cert.ReferenceIdeal.Read.val_main_v19_eq, e0, e1, e2, e3, e4, e5, e6, e7]
    funext idx
    obtain ⟨b, i, d, rfl⟩ : ∃ (b : Fin 4) (i : Fin 2048) (d : Fin 1024), idx = ix3 b i d := ⟨idx 0, idx 1, idx 2, eq_ix3 idx⟩
    rw [Cert.ReferenceIdeal.RefVal.ref_x]
    refine (Finset.sum_congr rfl fun f _ => ?_).trans (Cert.KernelIdeal.Glue.kernel_x m ρ c b i d).symm
    rw [← Cert.Math.row_eq _ _ _ _ _ _ _ h0 h1 h2 h4 h5 h6 b i (hrow b i) f]
    rfl
  · rw [Cert.ReferenceIdeal.Read.val_main_v18_eq, e0, e1, e2, e3, e4, e5, e6]
    funext idx
    obtain ⟨b, i, f, rfl⟩ : ∃ (b : Fin 4) (i : Fin 2048) (f : Fin 512), idx = ix3 b i f := ⟨idx 0, idx 1, idx 2, eq_ix3 idx⟩
    rw [Cert.ReferenceIdeal.RefVal.ref_ctx, ← Cert.Math.row_eq _ _ _ _ _ _ _ h0 h1 h2 h4 h5 h6 b i (hrow b i) f]
    exact (Cert.KernelIdeal.Glue.kernel_ctx m ρ c b i f).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
